-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S_ : Shape := ⟨0, ![]⟩

class Facts : Prop where
  bcast_S_S128x4x16384 : S_.BroadcastsInDim S128x4x16384 (![] : Fin 0 → Fin S128x4x16384.rank)
  reducesTo_S128x4x16384_S_d0_1_2 : S128x4x16384.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_
  bcast_S_S32x1 : S_.BroadcastsInDim S32x1 (![] : Fin 0 → Fin S32x1.rank)
  reducesTo_S32x1_S_d0_1 : S32x1.ReducesTo [0, 1] S_
  bcast_S_S64x32 : S_.BroadcastsInDim S64x32 (![] : Fin 0 → Fin S64x32.rank)
  reducesTo_S64x32_S_d0_1 : S64x32.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_arg5 : FVec F S64x1 .f32) (main_arg6 : FVec F S64x1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S128x4x16384 .f32) (main_arg1 : FVec F S32x4 .f32) (main_arg2 : FVec F S32x1 .f32) (main_arg3 : FVec F S64x32 .f32) (main_arg4 : FVec F S64x1 .f32) (main_arg5 : FVec F S64x1 .f32) (main_arg6 : FVec F S64x1 .f32) : IVec S_ 1 :=
  let main_v0 : FVec F S128x4x16384 .f32 := Host.absf main_arg0
  let main_cst : FVec F S_ .f32 := constant S_ .f32 0x7F800000#32
  let main_v1 : FVec F S128x4x16384 .f32 := broadcastInDim S128x4x16384 ![] bcast_S_S128x4x16384 main_cst
  let main_v2 : IVec S128x4x16384 1 := cmpf .olt main_v0 main_v1
  let main_c : IVec S_ 1 := constantI S_ 1 1#1
  let main_v3 : IVec S_ 1 := (fun x v => Host.reduce IntOp.andi x v reducesTo_S128x4x16384_S_d0_1_2 h_S_) main_v2 main_c
  let main_v4 : FVec F S32x4 .f32 := Host.absf main_arg1
  let main_cst_0 : FVec F S_ .f32 := constant S_ .f32 0x7F800000#32
  let main_v5 : FVec F S32x4 .f32 := broadcastInDim S32x4 ![] bcast_S_S32x4 main_cst_0
  let main_v6 : IVec S32x4 1 := cmpf .olt main_v4 main_v5
  let main_c_1 : IVec S_ 1 := constantI S_ 1 1#1
  let main_v7 : IVec S_ 1 := (fun x v => Host.reduce IntOp.andi x v reducesTo_S32x4_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S_ : Shape := ⟨0, ![]⟩
abbrev S40x4 : Shape := ⟨2, ![40, 4]⟩
abbrev S1 : Shape := ⟨1, ![1]⟩
abbrev S40x1 : Shape := ⟨2, ![40, 1]⟩
abbrev S2 : Shape := ⟨1, ![2]⟩
abbrev S64x40 : Shape := ⟨2, ![64, 40]⟩
abbrev S64 : Shape := ⟨1, ![64]⟩
abbrev S128x64x1 : Shape := ⟨3, ![128, 64, 1]⟩
abbrev S1x4x16384 : Shape := ⟨3, ![1, 4, 16384]⟩
abbrev S1x64x1 : Shape := ⟨3, ![1, 64, 1]⟩
abbrev S4x16384 : Shape := ⟨2, ![4, 16384]⟩
abbrev S40x16384 : Shape := ⟨2, ![40, 16384]⟩
abbrev S64x16384 : Shape := ⟨2, ![64, 16384]⟩
abbrev S128x64x16384 : Shape := ⟨3, ![128, 64, 16384]⟩
abbrev S1x64x16384 : Shape := ⟨3, ![1, 64, 16384]⟩

abbrev nBuf : Space → Nat
  | .hbm => 60
  | .vmem => 18
  | .smem => 0
  | _ => 0

abbrev bufTy : (tb : Table) → Fin (tcTables nBuf tb) → BufTy
  | .hbm, ⟨0, _⟩ => ⟨S128x4x16384, .f32⟩
  | .hbm, ⟨1, _⟩ => ⟨S32x4, .f32⟩
  | .hbm, ⟨2, _⟩ => ⟨S32x1, .f32⟩
  | .hbm, ⟨3, _⟩ => ⟨S64x32, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S40x4, .f32⟩
  | .hbm, ⟨9, _⟩ => ⟨S_, .i32⟩
  | .hbm, ⟨10, _⟩ => ⟨S1, .i32⟩
  | .hbm, ⟨11, _⟩ => ⟨S40x4, .f32⟩
  | .hbm, ⟨12, _⟩ => ⟨S40x4, .bf16⟩
  | .hbm, ⟨13, _⟩ => ⟨S_, .f32⟩
  | .hbm, ⟨14, _⟩ => ⟨S40x1, .f32⟩
  | .hbm, ⟨15, _⟩ => ⟨S_, .i32⟩
  | .hbm, ⟨16, _⟩ => ⟨S1, .i32⟩
  | .hbm, ⟨17, _⟩ => ⟨S40x1, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S_, .f32⟩
  | .hbm, ⟨24, _⟩ => ⟨S40x1, .f32⟩
  | .hbm, ⟨25, _⟩ => ⟨S_, .f32⟩
  | .hbm, ⟨26, _⟩ => ⟨S64x40, .f32⟩
  | .hbm, ⟨27, _⟩ => ⟨S_, .i32⟩
  | .hbm, ⟨28, _⟩ => ⟨S1, .i32⟩
  | .hbm, ⟨29, _⟩ => ⟨S64x40, .f32⟩
  | .hbm, ⟨30, _⟩ => ⟨S64, .f32⟩
  | .hbm, ⟨31, _⟩ => ⟨S_, .i32⟩
  | .hbm, ⟨32, _⟩ => ⟨S1, .i32⟩
  | .hbm, ⟨33, _⟩ => ⟨S64x40, .f32⟩
  | .hbm, ⟨34, _⟩ => ⟨S64x40, .bf16⟩
  | .hbm, ⟨35, _⟩ => ⟨S128x64x1, .f32⟩
  | .hbm, ⟨36, _⟩ => ⟨S128x64x1, .f32⟩
  | .hbm, ⟨37, _⟩ => ⟨S_, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S_, .f32⟩
  | .hbm, ⟨50, _⟩ => ⟨S64x1, .f32⟩
  | .hbm, ⟨51, _⟩ => ⟨S64x1, .f32⟩
  | .hbm, ⟨52, _⟩ => ⟨S_, .f32⟩
  | .hbm, ⟨53, _⟩ => ⟨S64x1, .f32⟩
  | .hbm, ⟨54, _⟩ => ⟨S64x1, .f32⟩
  | .hbm, ⟨55, _⟩ => ⟨S64x1, .f32⟩
  | .hbm, ⟨56, _⟩ => ⟨S64x1, .f32⟩
  | .hbm, ⟨57, _⟩ => ⟨S64x1, .f32⟩
  | .hbm, ⟨58, _⟩ => ⟨S64x1, .f32⟩
  | .hbm, ⟨59, _⟩ => ⟨S128x64x16384, .f32⟩
  | .local _ .vmem, ⟨0, _⟩ => ⟨S1x4x16384, .f32⟩
  | .local _ .vmem, ⟨1, _⟩ => ⟨S1x4x16384, .f32⟩
  | .local _ .vmem, ⟨2, _⟩ => ⟨S40x4, .bf16⟩
  | .local _ .vmem, ⟨3, _⟩ => ⟨S40x1, .f32⟩
  | .local _ .vmem, ⟨4, _⟩ => ⟨S64x40, .bf16⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x4x16384, .f32⟩
  | .local _ .vmem, ⟨10, _⟩ => ⟨S1x4x16384, .f32⟩
  | .local _ .vmem, ⟨11, _⟩ => ⟨S40x4, .bf16⟩
  | .local _ .vmem, ⟨12, _⟩ => ⟨S40x1, .f32⟩
  | .local _ .vmem, ⟨13, _⟩ => ⟨S64x40, .bf16⟩
  | .local _ .vmem, ⟨14, _⟩ => ⟨S64x1, .f32⟩
  | .local _ .vmem, ⟨15, _⟩ => ⟨S64x1, .f32⟩
  | .local _ .vmem, ⟨16, _⟩ => ⟨S1x64x16384, .f32⟩
  | .local _ .vmem, ⟨17, _⟩ => ⟨S1x64x16384, .f32⟩
  | _, _ => ⟨S128x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_c_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_cst_8 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_v22 : Ref sig .tc := ⟨.hbm, 43, rfl⟩
abbrev main_cst_11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_12 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x4 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S40x4 : S_.BroadcastsInDim S40x4 (![] : Fin 0 → Fin S40x4.rank)
  bcast_S_S1 : S_.BroadcastsInDim S1 (![] : Fin 0 → Fin S1.rank)
  bitsLt_bf16_f32 : FTy.bits .bf16 < FTy.bits .f32
  bcast_S_S40x1 : S_.BroadcastsInDim S40x1 (![] : Fin 0 → Fin S40x1.rank)
  concatenates_S1_S1_S2_d0 : Shape.Concatenates [S1, S1] S2 0
  bcast_S_S64x40 : S_.BroadcastsInDim S64x40 (![] : Fin 0 → Fin S64x40.rank)
  shapeCasts_S64x1_S64 : S64x1.ShapeCasts S64
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  inb_S40x4_S40x4_0_0 : ∀ a, (![0, 0] : Fin 2 → Nat) a + S40x4.size a ≤ S40x4.size a
  h_S40x4 : 0 < S40x4.numel
  shapeCasts_S40x4_S40x4 : S40x4.ShapeCasts S40x4
  inb_S40x1_S40x1_0_0 : ∀ a, (![0, 0] : Fin 2 → Nat) a + S40x1.size a ≤ S40x1.size a
  h_S40x1 : 0 < S40x1.numel
  shapeCasts_S40x1_S40x1 : S40x1.ShapeCasts S40x1
  broadcasts_S40x1_S40x16384 : S40x1.Broadcasts S40x16384
  inb_S64x40_S64x40_0_0 : ∀ a, (![0, 0] : Fin 2 → Nat) a + S64x40.size a ≤ S64x40.size a
  h_S64x40 : 0 < S64x40.numel
  shapeCasts_S64x40_S64x40 : S64x40.ShapeCasts S64x40
  reduces_S64x16384_S64 : S64x16384.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S128x64x1_S64x1_d0 : S128x64x1.ReducesTo [0] S64x1
  h_S_ : 0 < S_.numel
  bcast_S_S64x1 : S_.BroadcastsInDim S64x1 (![] : Fin 0 → Fin S64x1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  scatter_S40x4_S1_S32x4_01_n_0_0_wf : ScatterDims.WF S40x4 S1 S32x4 [0, 1] [] [0] 0
  scatter_S40x1_S1_S32x1_01_n_0_0_wf : ScatterDims.WF S40x1 S1 S32x1 [0, 1] [] [0] 0
  scatter_S40x1_S2_S__n_01_01_0_wf : ScatterDims.WF S40x1 S2 S_ [] [0, 1] [0, 1] 0
  scatter_S64x40_S1_S64x32_01_n_1_0_wf : ScatterDims.WF S64x40 S1 S64x32 [0, 1] [] [1] 0
  scatter_S64x40_S1_S64_0_1_1_0_wf : ScatterDims.WF S64x40 S1 S64 [0] [1] [1] 0
  dot_S40x4_S4x16384_S40x16384_1_0_0_1_n_n_wf : DotDims.WF S40x4 S4x16384 S40x16384 [1] [0] [0] [1] [] []
  dot_S64x40_S40x16384_S64x16384_1_0_0_1_n_n_wf : DotDims.WF S64x40 S40x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16384.size a ≤ S128x4x16384.size a
  hwx0_0 : ∀ i : grid0.Coords, EltTy.bits .f32 = 32 ∨ (Rect.block (s := S128x4x16384) S1x4x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x4.size a ≤ S40x4.size a
  hwx0_1 : ∀ i : grid0.Coords, EltTy.bits .bf16 = 32 ∨ (Rect.block (s := S40x4) S40x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S40x1.size a
  hwx0_2 : ∀ i : grid0.Coords, EltTy.bits .f32 = 32 ∨ (Rect.block (s := S40x1) S40x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x40.size a ≤ S64x40.size a
  hwx0_3 : ∀ i : grid0.Coords, EltTy.bits .bf16 = 32 ∨ (Rect.block (s := S64x40) S64x40.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S128x64x1.size a
  hwx0_4 : ∀ i : grid0.Coords, EltTy.bits .f32 = 32 ∨ (Rect.block (s := S128x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S128x64x1.size a
  hwx0_5 : ∀ i : grid0.Coords, EltTy.bits .f32 = 32 ∨ (Rect.block (s := S128x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x16384.size a ≤ S128x4x16384.size a
  hwx1_0 : ∀ i : grid1.Coords, EltTy.bits .f32 = 32 ∨ (Rect.block (s := S128x4x16384) S1x4x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x4.size a ≤ S40x4.size a
  hwx1_1 : ∀ i : grid1.Coords, EltTy.bits .bf16 = 32 ∨ (Rect.block (s := S40x4) S40x4.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x1.size a ≤ S40x1.size a
  hwx1_2 : ∀ i : grid1.Coords, EltTy.bits .f32 = 32 ∨ (Rect.block (s := S40x1) S40x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x16384.size a ≤ S128x64x16384.size a
  hwx1_6 : ∀ i : grid1.Coords, EltTy.bits .f32 = 32 ∨ (Rect.block (s := S128x64x16384) S1x64x16384.size (cc1_transform_6 i) (hinb1_6 i)).WholeWords (EltTy.packing .f32)

variable [Facts₀]

def scatter_S40x4_S1_S32x4_01_n_0_0 : ScatterDims S40x4 S1 S32x4 where
  updateWindowDims := [0, 1]
  insertedWindowDims := []
  scatterDimsToOperandDims := [0]
  indexVectorDim := 0
  wf := scatter_S40x4_S1_S32x4_01_n_0_0_wf
def scatter_S40x1_S1_S32x1_01_n_0_0 : ScatterDims S40x1 S1 S32x1 where
  updateWindowDims := [0, 1]
  insertedWindowDims := []
  scatterDimsToOperandDims := [0]
  indexVectorDim := 0
  wf := scatter_S40x1_S1_S32x1_01_n_0_0_wf
def scatter_S40x1_S2_S__n_01_01_0 : ScatterDims S40x1 S2 S_ where
  updateWindowDims := []
  insertedWindowDims := [0, 1]
  scatterDimsToOperandDims := [0, 1]
  indexVectorDim := 0
  wf := scatter_S40x1_S2_S__n_01_01_0_wf
def scatter_S64x40_S1_S64x32_01_n_1_0 : ScatterDims S64x40 S1 S64x32 where
  updateWindowDims := [0, 1]
  insertedWindowDims := []
  scatterDimsToOperandDims := [1]
  indexVectorDim := 0
  wf := scatter_S64x40_S1_S64x32_01_n_1_0_wf
def scatter_S64x40_S1_S64_0_1_1_0 : ScatterDims S64x40 S1 S64 where
  updateWindowDims := [0]
  insertedWindowDims := [1]
  scatterDimsToOperandDims := [1]
  indexVectorDim := 0
  wf := scatter_S64x40_S1_S64_0_1_1_0_wf
def dot_S40x4_S4x16384_S40x16384_1_0_0_1_n_n : DotDims S40x4 S4x16384 S40x16384 where
  lhsContracting := [1]
  rhsContracting := [0]
  lhsNonContracting := [0]
  rhsNonContracting := [1]
  lhsBatch := []
  rhsBatch := []
  wf := dot_S40x4_S4x16384_S40x16384_1_0_0_1_n_n_wf
def dot_S64x40_S40x16384_S64x16384_1_0_0_1_n_n : DotDims S64x40 S40x16384 S64x16384 where
  lhsContracting := [1]
  rhsContracting := [0]
  lhsNonContracting := [0]
  rhsNonContracting := [1]
  lhsBatch := []
  rhsBatch := []
  wf := dot_S64x40_S40x16384_S64x16384_1_0_0_1_n_n_wf

abbrev win0_0 : Pipeline.Window sig grid0 :=
  Pipeline.Window.ofSpec (Memref.whole main_arg0) S1x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S40x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S40x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x4x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S40x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S40x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64x16384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x4x16384 : Shape := ⟨3, ![128, 4, 16384]⟩
abbrev S32x4 : Shape := ⟨2, ![32, 4]⟩
abbrev S32x1 : Shape := ⟨2, ![32, 1]⟩
abbrev S64x32 : Shape := ⟨2, ![64, 32]⟩
abbrev S64x1 : Shape := ⟨2, ![64, 1]⟩
abbrev S128x1x64x1 : Shape := ⟨4, ![128, 1, 64, 1]⟩
abbrev S1x4x16384 : Shape := ⟨3, ![1, 4, 16384]⟩
abbrev S1x1x64x1 : Shape := ⟨4, ![1, 1, 64, 1]⟩
abbrev S4x16384 : Shape := ⟨2, ![4, 16384]⟩
abbrev S32x16384 : Shape := ⟨2, ![32, 16384]⟩
abbrev S64x16384 : Shape := ⟨2, ![64, 16384]⟩
abbrev S64 : Shape := ⟨1, ![64]⟩
abbrev S_ : Shape := ⟨0, ![]⟩
abbrev S128x64x16384 : Shape := ⟨3, ![128, 64, 16384]⟩
abbrev S1x64x16384 : Shape := ⟨3, ![1, 64, 16384]⟩

abbrev nBuf : Space → Nat
  | .hbm => 32
  | .vmem => 20
  | .smem => 0
  | _ => 0

abbrev bufTy : (tb : Table) → Fin (tcTables nBuf tb) → BufTy
  | .hbm, ⟨0, _⟩ => ⟨S128x4x16384, .f32⟩
  | .hbm, ⟨1, _⟩ => ⟨S32x4, .f32⟩
  | .hbm, ⟨2, _⟩ => ⟨S32x1, .f32⟩
  | .hbm, ⟨3, _⟩ => ⟨S64x32, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S128x1x64x1, .f32⟩
  | .hbm, ⟨8, _⟩ => ⟨S128x1x64x1, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S_, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S128x64x16384, .f32⟩
  | .local _ .vmem, ⟨0, _⟩ => ⟨S1x4x16384, .f32⟩
  | .local _ .vmem, ⟨1, _⟩ => ⟨S1x4x16384, .f32⟩
  | .local _ .vmem, ⟨2, _⟩ => ⟨S32x4, .f32⟩
  | .local _ .vmem, ⟨3, _⟩ => ⟨S32x1, .f32⟩
  | .local _ .vmem, ⟨4, _⟩ => ⟨S64x32, .f32⟩
  | .local _ .vmem, ⟨5, _⟩ => ⟨S64x1, .f32⟩
  | .local _ .vmem, ⟨6, _⟩ => ⟨S1x1x64x1, .f32⟩
  | .local _ .vmem, ⟨7, _⟩ => ⟨S1x1x64x1, .f32⟩
  | .local _ .vmem, ⟨8, _⟩ => ⟨S1x1x64x1, .f32⟩
  | .local _ .vmem, ⟨9, _⟩ => ⟨S1x1x64x1, .f32⟩
  | .local _ .vmem, ⟨10, _⟩ => ⟨S1x4x16384, .f32⟩
  | .local _ .vmem, ⟨11, _⟩ => ⟨S1x4x16384, .f32⟩
  | .local _ .vmem, ⟨12, _⟩ => ⟨S64x1, .f32⟩
  | .local _ .vmem, ⟨13, _⟩ => ⟨S64x1, .f32⟩
  | .local _ .vmem, ⟨14, _⟩ => ⟨S32x4, .f32⟩
  | .local _ .vmem, ⟨15, _⟩ => ⟨S32x1, .f32⟩
  | .local _ .vmem, ⟨16, _⟩ => ⟨S64x32, .f32⟩
  | .local _ .vmem, ⟨17, _⟩ => ⟨S64x1, .f32⟩
  | .local _ .vmem, ⟨18, _⟩ => ⟨S1x64x16384, .f32⟩
  | .local _ .vmem, ⟨19, _⟩ => ⟨S1x64x16384, .f32⟩
  | _, _ => ⟨S128x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![128, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x64x16384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  inb_S32x4_S32x4_0_0 : ∀ a, (![0, 0] : Fin 2 → Nat) a + S32x4.size a ≤ S32x4.size a
  h_S32x4 : 0 < S32x4.numel
  inb_S32x1_S32x1_0_0 : ∀ a, (![0, 0] : Fin 2 → Nat) a + S32x1.size a ≤ S32x1.size a
  h_S32x1 : 0 < S32x1.numel
  broadcasts_S32x1_S32x16384 : S32x1.Broadcasts S32x16384
  inb_S64x32_S64x32_0_0 : ∀ a, (![0, 0] : Fin 2 → Nat) a + S64x32.size a ≤ S64x32.size a
  h_S64x32 : 0 < S64x32.numel
  inb_S64x1_S64x1_0_0 : ∀ a, (![0, 0] : Fin 2 → Nat) a + S64x1.size a ≤ S64x1.size a
  h_S64x1 : 0 < S64x1.numel
  broadcasts_S64x1_S64x16384 : S64x1.Broadcasts S64x16384
  reduces_S64x16384_S64 : S64x16384.Reduces [1] S64
  shapeCasts_S64_S64x1 : S64.ShapeCasts S64x1
  inb_S1x1x64x1_S1x1x64x1_0_0_0_0 : ∀ a, (![0, 0, 0, 0] : Fin 4 → Nat) a + S1x1x64x1.size a ≤ S1x1x64x1.size a
  h_S1x1x64x1 : 0 < S1x1x64x1.numel
  shapeCasts_S1x1x64x1_S64x1 : S1x1x64x1.ShapeCasts S64x1
  shapeCasts_S64x1_S1x1x64x1 : S64x1.ShapeCasts S1x1x64x1
  reducesTo_S128x1x64x1_S64x1_d0_1 : S128x1x64x1.ReducesTo [0, 1] S64x1
  h_S_ : 0 < S_.numel
  bcast_S_S64x1 : S_.BroadcastsInDim S64x1 (![] : Fin 0 → Fin S64x1.rank)
  shapeCasts_S64x1_S64x1 : S64x1.ShapeCasts S64x1
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  dot_S32x4_S4x16384_S32x16384_1_0_0_1_n_n_wf : DotDims.WF S32x4 S4x16384 S32x16384 [1] [0] [0] [1] [] []
  dot_S64x32_S32x16384_S64x16384_1_0_0_1_n_n_wf : DotDims.WF S64x32 S32x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16384.size a ≤ S128x4x16384.size a
  hwx0_0 : ∀ i : grid0.Coords, EltTy.bits .f32 = 32 ∨ (Rect.block (s := S128x4x16384) S1x4x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .f32 = 32 ∨ (Rect.block (s := S32x4) S32x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x1.size a ≤ S128x1x64x1.size a
  hwx0_5 : ∀ i : grid0.Coords, EltTy.bits .f32 = 32 ∨ (Rect.block (s := S128x1x64x1) S1x1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64x1.size a ≤ S128x1x64x1.size a
  hwx0_6 : ∀ i : grid0.Coords, EltTy.bits .f32 = 32 ∨ (Rect.block (s := S128x1x64x1) S1x1x64x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x16384.size a ≤ S128x4x16384.size a
  hwx1_0 : ∀ i : grid1.Coords, EltTy.bits .f32 = 32 ∨ (Rect.block (s := S128x4x16384) S1x4x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x4.size a ≤ S32x4.size a
  hwx1_3 : ∀ i : grid1.Coords, EltTy.bits .f32 = 32 ∨ (Rect.block (s := S32x4) S32x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x16384.size a ≤ S128x64x16384.size a
  hwx1_7 : ∀ i : grid1.Coords, EltTy.bits .f32 = 32 ∨ (Rect.block (s := S128x64x16384) S1x64x16384.size (cc1_transform_7 i) (hinb1_7 i)).WholeWords (EltTy.packing .f32)

variable [Facts₀]

def dot_S32x4_S4x16384_S32x16384_1_0_0_1_n_n : DotDims S32x4 S4x16384 S32x16384 where
  lhsContracting := [1]
  rhsContracting := [0]
  lhsNonContracting := [0]
  rhsNonContracting := [1]
  lhsBatch := []
  rhsBatch := []
  wf := dot_S32x4_S4x16384_S32x16384_1_0_0_1_n_n_wf
def dot_S64x32_S32x16384_S64x16384_1_0_0_1_n_n : DotDims S64x32 S32x16384 S64x16384 where
  lhsContracting := [1]
  rhsContracting := [0]
  lhsNonContracting := [0]
  rhsNonContracting := [1]
  lhsBatch := []
  rhsBatch := []
  wf := dot_S64x32_S32x16384_S64x16384_1_0_0_1_n_n_wf

abbrev win0_0 : Pipeline.Window sig grid0 :=
  Pipeline.Window.ofSpec (Memref.whole main_arg0) S1x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x4x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x64x16384.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.Tile.lean ====
/-
  Tile `n` of a [128, 4, 16384] array, as the [1, 4, 16384] block a grid point sees: entry (0, k, l) of the tile is
  entry (n, k, l) of the array. Both programs' pallas_calls walk the batch axis one such tile per grid point.
-/
import Idealize.ShloMosaic.Lib.ValueIdx

namespace Cert.Bridge

open Idealize.ShloMosaic Idealize.ShloMosaic.ValueIdx

/-- The tile of batch element `n`. -/
def xtile {α : Type} (X : (⟨3, ![128, 4, 16384]⟩ : Shape).Idx → α) (n : Fin 128) :
    (⟨3, ![1, 4, 16384]⟩ : Shape).Idx → α :=
  fun y => X (ix3 n ⟨(y 1).val, (y 1).isLt⟩ ⟨(y 2).val, (y 2).isLt⟩)

theorem xtile_apply {α : Type} (X : (⟨3, ![128, 4, 16384]⟩ : Shape).Idx → α) (n : Fin 128) (k : Fin 4) (l : Fin 16384) :
    xtile X n (ix3 0 k l) = X (ix3 n k l) := rfl

end Cert.Bridge
-- ==== Proof.KRegion0.lean ====
/-
  The first pallas_call of the kernel (the statistics pass), read as values. Its grid walks the batch: point `t` sees
  tile `t` of the input, [1, 4, 16384], and the three weight arrays whole; it writes block `t`, [1, 64, 1], of each of
  its two result arrays: the per-channel sum over the tile's 16384 positions of the two-layer stack, and of its
  square. So each result array, [128, 64, 1], holds at (n, q, 0) the body's stored value for tile `n` at (0, q, 0):
  the blocks tile the array and each block is one point's.
-/
import proofs.«106257_g2000300775167955_pallasbulk_386_4_alg».proof.Proof.Gen.KernelIdeal.Frame
import proofs.«106257_g2000300775167955_pallasbulk_386_4_alg».proof.Proof.Tile
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Bridge

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point of the first call as a batch index. -/
def tn0 (t : Fin cfg0.N) : Fin 128 := ⟨t.val, lt_of_lt_of_eq t.isLt (show cfg0.N = 128 from N_0)⟩

/-- The first call's index maps, decided over the grid: the input tile and the two result blocks move with the
    point along the batch axis; the weight arrays are read whole at every point. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The input window's block at point `t` is tile `t` of the input array. -/
theorem iblk0_x (c : Dev nD) (t : Fin cfg0.N) :
    (iblk0 V c 0 t : Vec F S1x4x16384 .f32) = xtile (V c main_arg0 : S128x4x16384.Idx → Elt F .f32) (tn0 t) := by
  obtain ⟨e0, e1, e2, -⟩ := idx_facts0 t
  funext y
  unfold iblk0
  rw [View.read_apply]
  show (V c main_arg0 : S128x4x16384.Idx → Elt F .f32) _ = (V c main_arg0 : S128x4x16384.Idx → Elt F .f32) _
  congr 1
  funext a
  apply Fin.ext
  match a with
  | ⟨0, _⟩ =>
    show win0_0.index t (0 : Fin 3) * 1 + 1 * (y 0).val = t.val
    have h0 : (y 0).val < 1 := (y 0).isLt
    rw [e0]; omega
  | ⟨1, _⟩ => show win0_0.index t (1 : Fin 3) * 4 + 1 * (y 1).val = (y 1).val; rw [e1]; omega
  | ⟨2, _⟩ => show win0_0.index t (2 : Fin 3) * 16384 + 1 * (y 2).val = (y 2).val; rw [e2]; omega

/-- The three weight windows' blocks are their arrays, whole, at every point. -/
theorem iblk0_w0 (c : Dev nD) (t : Fin cfg0.N) : (iblk0 V c 1 t : Vec F S40x4 .bf16) = V c main_v3 := by
  obtain ⟨-, -, -, e0, e1, -⟩ := idx_facts0 t
  funext y
  unfold iblk0
  rw [View.read_apply]
  show (V c main_v3 : S40x4.Idx → Elt F .bf16) _ = (V c main_v3 : S40x4.Idx → Elt F .bf16) y
  congr 1
  funext a
  apply Fin.ext
  match a with
  | ⟨0, _⟩ => show win0_1.index t (0 : Fin 2) * 40 + 1 * (y 0).val = (y 0).val; rw [e0]; omega
  | ⟨1, _⟩ => show win0_1.index t (1 : Fin 2) * 4 + 1 * (y 1).val = (y 1).val; rw [e1]; omega
theorem iblk0_b0 (c : Dev nD) (t : Fin cfg0.N) : (iblk0 V c 2 t : Vec F S40x1 .f32) = V c main_v10 := by
  obtain ⟨-, -, -, -, -, e0, e1, -⟩ := idx_facts0 t
  funext y
  unfold iblk0
  rw [View.read_apply]
  show (V c main_v10 : S40x1.Idx → Elt F .f32) _ = (V c main_v10 : S40x1.Idx → Elt F .f32) y
  congr 1
  funext a
  apply Fin.ext
  match a with
  | ⟨0, _⟩ => show win0_2.index t (0 : Fin 2) * 40 + 1 * (y 0).val = (y 0).val; rw [e0]; omega
  | ⟨1, _⟩ => show win0_2.index t (1 : Fin 2) * 1 + 1 * (y 1).val = (y 1).val; rw [e1]; omega
theorem iblk0_w1 (c : Dev nD) (t : Fin cfg0.N) : (iblk0 V c 3 t : Vec F S64x40 .bf16) = V c main_v17 := by
  obtain ⟨-, -, -, -, -, -, -, e0, e1, -⟩ := idx_facts0 t
  funext y
  unfold iblk0
  rw [View.read_apply]
  show (V c main_v17 : S64x40.Idx → Elt F .bf16) _ = (V c main_v17 : S64x40.Idx → Elt F .bf16) y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 40 + 1 * (y 1).val = (y 1).val; rw [e1]; omega

/-- The array of per-tile channel sums: at (n, q, 0) the body's first stored value for tile `n`, at (0, q, 0). -/
def sums (c : Dev nD) : Buf (Elt F) ((c : Thread nD τ).loc main_v18_0) :=
  fun (i : S128x64x1.Idx) => k0_pay2 (xtile (V c main_arg0 : S128x4x16384.Idx → Elt F .f32) ⟨(i 0).val, (i 0).isLt⟩)
    (V c main_v3) (V c main_v10) (V c main_v17) (ix3 0 ⟨(i 1).val, (i 1).isLt⟩ ⟨(i 2).val, (i 2).isLt⟩)
/-- The array of per-tile channel sums of squares, likewise from the body's second stored value. -/
def ssqs (c : Dev nD) : Buf (Elt F) ((c : Thread nD τ).loc main_v18_1) :=
  fun (i : S128x64x1.Idx) => k0_pay3 (xtile (V c main_arg0 : S128x4x16384.Idx → Elt F .f32) ⟨(i 0).val, (i 0).isLt⟩)
    (V c main_v3) (V c main_v10) (V c main_v17) (ix3 0 ⟨(i 1).val, (i 1).isLt⟩ ⟨(i 2).val, (i 2).isLt⟩)

/-- What point `t` writes back to the first result array is block `t` of `sums`. -/
theorem flushed0_4_eq (c : Dev nD) (t : Fin cfg0.N) :
    (dat0 V c).flushed 4 t = ((cfg0.win 4).blk t).view.read (Elt F) (sums V c) := by
  show (cfg0.win 4).cut (grid0.coords t) ((dat0 V c).after 4 t) = _
  rw [after0_4]
  unfold out0_4
  rw [View.canon_unit_zero hz3]
  simp only [View.ld_unit_zero (S := S1x4x16384) hz3, View.ld_unit_zero (S := S40x4) hz2, View.ld_unit_zero (S := S40x1) hz2,
    View.ld_unit_zero (S := S64x40) hz2]
  rw [iblk0_x V c t, iblk0_w0 V c t, iblk0_b0 V c t, iblk0_w1 V c t]
  obtain ⟨-, -, -, -, -, -, -, -, -, e0, e1, e2, -⟩ := idx_facts0 t
  funext j
  rw [View.read_apply]
  unfold sums
  have hj0 : (j 0).val < 1 := (j 0).isLt
  have hn : (⟨((((cfg0.win 4).blk t).view.emb j) 0).val, ((((cfg0.win 4).blk t).view.emb j) 0).isLt⟩ : Fin 128) = tn0 t := by
    apply Fin.ext
    show win0_4.index t (0 : Fin 3) * 1 + 1 * (j 0).val = t.val
    rw [e0]; omega
  have hi : (ix3 (0 : Fin 1) (⟨((((cfg0.win 4).blk t).view.emb j) 1).val, ((((cfg0.win 4).blk t).view.emb j) 1).isLt⟩ : Fin 64)
      (⟨((((cfg0.win 4).blk t).view.emb j) 2).val, ((((cfg0.win 4).blk t).view.emb j) 2).isLt⟩ : Fin 1) : S1x64x1.Idx) = j := by
    funext a
    apply Fin.ext
    match a with
    | ⟨0, _⟩ => show (0 : Nat) = (j 0).val; omega
    | ⟨1, _⟩ => show win0_4.index t (1 : Fin 3) * 64 + 1 * (j 1).val = (j 1).val; rw [e1]; omega
    | ⟨2, _⟩ => show win0_4.index t (2 : Fin 3) * 1 + 1 * (j 2).val = (j 2).val; rw [e2]; omega
  show _ = k0_pay2 _ _ _ _ _
  rw [hn, hi]

theorem flushed0_5_eq (c : Dev nD) (t : Fin cfg0.N) :
    (dat0 V c).flushed 5 t = ((cfg0.win 5).blk t).view.read (Elt F) (ssqs V c) := by
  show (cfg0.win 5).cut (grid0.coords t) ((dat0 V c).after 5 t) = _
  rw [after0_5]
  unfold out0_5
  rw [View.canon_unit_zero hz3]
  simp only [View.ld_unit_zero (S := S1x4x16384) hz3, View.ld_unit_zero (S := S40x4) hz2, View.ld_unit_zero (S := S40x1) hz2,
    View.ld_unit_zero (S := S64x40) hz2]
  rw [iblk0_x V c t, iblk0_w0 V c t, iblk0_b0 V c t, iblk0_w1 V c t]
  obtain ⟨-, -, -, -, -, -, -, -, -, -, -, -, e0, e1, e2⟩ := idx_facts0 t
  funext j
  rw [View.read_apply]
  unfold ssqs
  have hj0 : (j 0).val < 1 := (j 0).isLt
  have hn : (⟨((((cfg0.win 5).blk t).view.emb j) 0).val, ((((cfg0.win 5).blk t).view.emb j) 0).isLt⟩ : Fin 128) = tn0 t := by
    apply Fin.ext
    show win0_5.index t (0 : Fin 3) * 1 + 1 * (j 0).val = t.val
    rw [e0]; omega
  have hi : (ix3 (0 : Fin 1) (⟨((((cfg0.win 5).blk t).view.emb j) 1).val, ((((cfg0.win 5).blk t).view.emb j) 1).isLt⟩ : Fin 64)
      (⟨((((cfg0.win 5).blk t).view.emb j) 2).val, ((((cfg0.win 5).blk t).view.emb j) 2).isLt⟩ : Fin 1) : S1x64x1.Idx) = j := by
    funext a
    apply Fin.ext
    match a with
    | ⟨0, _⟩ => show (0 : Nat) = (j 0).val; omega
    | ⟨1, _⟩ => show win0_5.index t (1 : Fin 3) * 64 + 1 * (j 1).val = (j 1).val; rw [e1]; omega
    | ⟨2, _⟩ => show win0_5.index t (2 : Fin 3) * 1 + 1 * (j 2).val = (j 2).val; rw [e2]; omega
  show _ = k0_pay3 _ _ _ _ _
  rw [hn, hi]

/-- Every entry of a result array is in the block of the point with its batch index. -/
theorem cover0_4_all (i : S128x64x1.Idx) : ∃ t : Fin cfg0.N, (cfg0.win 4).flush t = true ∧ i ∈ ((cfg0.win 4).blk t).view.set := by
  have hi0 : (i 0).val < 128 := (i 0).isLt
  have hi1 : (i 1).val < 64 := (i 1).isLt
  have hi2 : (i 2).val < 1 := (i 2).isLt
  let t : Fin cfg0.N := ⟨(i 0).val, lt_of_lt_of_eq hi0 (show cfg0.N = 128 from N_0).symm⟩
  obtain ⟨-, -, -, -, -, -, -, -, -, e0, e1, e2, -⟩ := idx_facts0 t
  refine ⟨t, flush0_4 t, ?_⟩
  show i ∈ ((View.whole main_v18_0).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0]; show (i 0).val * 1 ≤ (i 0).val ∧ (i 0).val < (i 0).val * 1 + 1; omega
  | ⟨1, _⟩ =>
    show win0_4.index t (1 : Fin 3) * 64 ≤ (i 1).val ∧ (i 1).val < win0_4.index t (1 : Fin 3) * 64 + 64
    rw [e1]; omega
  | ⟨2, _⟩ =>
    show win0_4.index t (2 : Fin 3) * 1 ≤ (i 2).val ∧ (i 2).val < win0_4.index t (2 : Fin 3) * 1 + 1
    rw [e2]; omega
theorem cover0_5_all (i : S128x64x1.Idx) : ∃ t : Fin cfg0.N, (cfg0.win 5).flush t = true ∧ i ∈ ((cfg0.win 5).blk t).view.set := by
  have hi0 : (i 0).val < 128 := (i 0).isLt
  have hi1 : (i 1).val < 64 := (i 1).isLt
  have hi2 : (i 2).val < 1 := (i 2).isLt
  let t : Fin cfg0.N := ⟨(i 0).val, lt_of_lt_of_eq hi0 (show cfg0.N = 128 from N_0).symm⟩
  obtain ⟨-, -, -, -, -, -, -, -, -, -, -, -, e0, e1, e2⟩ := idx_facts0 t
  refine ⟨t, flush0_5 t, ?_⟩
  show i ∈ ((View.whole main_v18_1).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0]; show (i 0).val * 1 ≤ (i 0).val ∧ (i 0).val < (i 0).val * 1 + 1; omega
  | ⟨1, _⟩ =>
    show win0_5.index t (1 : Fin 3) * 64 ≤ (i 1).val ∧ (i 1).val < win0_5.index t (1 : Fin 3) * 64 + 64
    rw [e1]; omega
  | ⟨2, _⟩ =>
    show win0_5.index t (2 : Fin 3) * 1 ≤ (i 2).val ∧ (i 2).val < win0_5.index t (2 : Fin 3) * 1 + 1
    rw [e2]; omega

/-- After the first call its result arrays hold `sums` and `ssqs`. -/
theorem arr0_4 (c : Dev nD) : (dat0 V c).arrAt 4 cfg0.N = sums V c :=
  (dat0 V c).arrAt_eq_of_cover 4 (sums V c) (fun t _ => flushed0_4_eq V c t) (cover0_4_all)
theorem arr0_5 (c : Dev nD) : (dat0 V c).arrAt 5 cfg0.N = ssqs V c :=
  (dat0 V c).arrAt_eq_of_cover 5 (ssqs V c) (fun t _ => flushed0_5_eq V c t) (cover0_5_all)

end Cert.KernelIdeal.Hand

end
-- ==== Proof.KRegion1.lean ====
/-
  The second pallas_call of the kernel (the normalisation pass), read as values. Point `t` of its grid sees tile `t`
  of the input, the three weight arrays and the folded scale and shift columns whole, and writes block `t`,
  [1, 64, 16384], of the result: the two-layer stack of the tile times the scale plus the shift. So the result array,
  [128, 64, 16384], holds at (n, q, l) the body's stored value for tile `n` at (0, q, l).
-/
import proofs.«106257_g2000300775167955_pallasbulk_386_4_alg».proof.Proof.Gen.KernelIdeal.Frame
import proofs.«106257_g2000300775167955_pallasbulk_386_4_alg».proof.Proof.Tile
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen Cert.Bridge

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point of the second call as a batch index. -/
def tn1 (t : Fin cfg1.N) : Fin 128 := ⟨t.val, lt_of_lt_of_eq t.isLt (show cfg1.N = 128 from N_1)⟩

/-- The second call's index maps at a point: the input tile and the result block move with the point along the batch
    axis; the five other operands are read whole at every point. -/
structure IdxFacts1 (t : Fin cfg1.N) : Prop where
  w0 : win1_0.index t (0 : Fin 3) = t.val ∧ win1_0.index t (1 : Fin 3) = 0 ∧ win1_0.index t (2 : Fin 3) = 0
  w1 : win1_1.index t (0 : Fin 2) = 0 ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 3) = t.val ∧ win1_6.index t (1 : Fin 3) = 0 ∧ win1_6.index t (2 : Fin 3) = 0

theorem idx_facts1 : ∀ t : Fin cfg1.N, IdxFacts1 t :=
  fun t => (by decide +kernel : ∀ t : Fin grid1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val ∧ win1_6.index t (1 : Fin 3) = 0 ∧ win1_6.index t (2 : Fin 3) = 0)) t
    |> fun ⟨a, b, c, d, e, f, g⟩ => ⟨a, b, c, d, e, f, g⟩

/-- The input window's block at point `t` is tile `t` of the input array. -/
theorem iblk1_x (c : Dev nD) (t : Fin cfg1.N) :
    (iblk1 V c 0 t : Vec F S1x4x16384 .f32) = xtile (V c main_arg0 : S128x4x16384.Idx → Elt F .f32) (tn1 t) := by
  have e := idx_facts1 t
  funext y
  unfold iblk1
  rw [View.read_apply]
  show (V c main_arg0 : S128x4x16384.Idx → Elt F .f32) _ = (V c main_arg0 : S128x4x16384.Idx → Elt F .f32) _
  congr 1
  funext a
  apply Fin.ext
  match a with
  | ⟨0, _⟩ =>
    show win1_0.index t (0 : Fin 3) * 1 + 1 * (y 0).val = t.val
    have h0 : (y 0).val < 1 := (y 0).isLt
    rw [e.w0.1]; omega
  | ⟨1, _⟩ =>
    show win1_0.index t (1 : Fin 3) * 4 + 1 * (y 1).val = (y 1).val
    rw [e.w0.2.1]; omega
  | ⟨2, _⟩ =>
    show win1_0.index t (2 : Fin 3) * 16384 + 1 * (y 2).val = (y 2).val
    rw [e.w0.2.2]; omega

/-- The five other operands' blocks are their arrays, whole, at every point. -/
theorem iblk1_w0 (c : Dev nD) (t : Fin cfg1.N) : (iblk1 V c 1 t : Vec F S40x4 .bf16) = V c main_v3 := by
  have e := idx_facts1 t
  funext y
  unfold iblk1
  rw [View.read_apply]
  show (V c main_v3 : S40x4.Idx → Elt F .bf16) _ = (V c main_v3 : S40x4.Idx → Elt F .bf16) y
  congr 1
  funext a
  apply Fin.ext
  match a with
  | ⟨0, _⟩ =>
    show win1_1.index t (0 : Fin 2) * 40 + 1 * (y 0).val = (y 0).val
    rw [e.w1.1]; omega
  | ⟨1, _⟩ =>
    show win1_1.index t (1 : Fin 2) * 4 + 1 * (y 1).val = (y 1).val
    rw [e.w1.2]; omega
theorem iblk1_b0 (c : Dev nD) (t : Fin cfg1.N) : (iblk1 V c 2 t : Vec F S40x1 .f32) = V c main_v10 := by
  have e := idx_facts1 t
  funext y
  unfold iblk1
  rw [View.read_apply]
  show (V c main_v10 : S40x1.Idx → Elt F .f32) _ = (V c main_v10 : S40x1.Idx → Elt F .f32) y
  congr 1
  funext a
  apply Fin.ext
  match a with
  | ⟨0, _⟩ =>
    show win1_2.index t (0 : Fin 2) * 40 + 1 * (y 0).val = (y 0).val
    rw [e.w2.1]; omega
  | ⟨1, _⟩ =>
    show win1_2.index t (1 : Fin 2) * 1 + 1 * (y 1).val = (y 1).val
    rw [e.w2.2]; omega
theorem iblk1_w1 (c : Dev nD) (t : Fin cfg1.N) : (iblk1 V c 3 t : Vec F S64x40 .bf16) = V c main_v17 := by
  have e := idx_facts1 t
  funext y
  unfold iblk1
  rw [View.read_apply]
  show (V c main_v17 : S64x40.Idx → Elt F .bf16) _ = (V c main_v17 : S64x40.Idx → Elt F .bf16) y
  congr 1
  funext a
  apply Fin.ext
  match a with
  | ⟨0, _⟩ =>
    show win1_3.index t (0 : Fin 2) * 64 + 1 * (y 0).val = (y 0).val
    rw [e.w3.1]; omega
  | ⟨1, _⟩ =>
    show win1_3.index t (1 : Fin 2) * 40 + 1 * (y 1).val = (y 1).val
    rw [e.w3.2]; omega
theorem iblk1_sc (c : Dev nD) (t : Fin cfg1.N) : (iblk1 V c 4 t : Vec F S64x1 .f32) = V c main_v32 := by
  have e := idx_facts1 t
  funext y
  unfold iblk1
  rw [View.read_apply]
  show (V c main_v32 : S64x1.Idx → Elt F .f32) _ = (V c main_v32 : S64x1.Idx → Elt F .f32) y
  congr 1
  funext a
  apply Fin.ext
  match a with
  | ⟨0, _⟩ =>
    show win1_4.index t (0 : Fin 2) * 64 + 1 * (y 0).val = (y 0).val
    rw [e.w4.1]; omega
  | ⟨1, _⟩ =>
    show win1_4.index t (1 : Fin 2) * 1 + 1 * (y 1).val = (y 1).val
    rw [e.w4.2]; omega
theorem iblk1_sh (c : Dev nD) (t : Fin cfg1.N) : (iblk1 V c 5 t : Vec F S64x1 .f32) = V c main_v34 := by
  have e := idx_facts1 t
  funext y
  unfold iblk1
  rw [View.read_apply]
  show (V c main_v34 : S64x1.Idx → Elt F .f32) _ = (V c main_v34 : S64x1.Idx → Elt F .f32) y
  congr 1
  funext a
  apply Fin.ext
  match a with
  | ⟨0, _⟩ =>
    show win1_5.index t (0 : Fin 2) * 64 + 1 * (y 0).val = (y 0).val
    rw [e.w5.1]; omega
  | ⟨1, _⟩ =>
    show win1_5.index t (1 : Fin 2) * 1 + 1 * (y 1).val = (y 1).val
    rw [e.w5.2]; omega

/-- The result array: at (n, q, l) the body's stored value for tile `n`, at (0, q, l). -/
def normed (c : Dev nD) : Buf (Elt F) ((c : Thread nD τ).loc main_v35) :=
  fun (i : S128x64x16384.Idx) => k1_pay1 (xtile (V c main_arg0 : S128x4x16384.Idx → Elt F .f32) ⟨(i 0).val, (i 0).isLt⟩)
    (V c main_v3) (V c main_v10) (V c main_v17) (V c main_v32) (V c main_v34)
    (ix3 0 ⟨(i 1).val, (i 1).isLt⟩ ⟨(i 2).val, (i 2).isLt⟩)

/-- What point `t` writes back is block `t` of `normed`. -/
theorem flushed1_6_eq (c : Dev nD) (t : Fin cfg1.N) :
    (dat1 V c).flushed 6 t = ((cfg1.win 6).blk t).view.read (Elt F) (normed V c) := by
  show (cfg1.win 6).cut (grid1.coords t) ((dat1 V c).after 6 t) = _
  rw [after1_6]
  unfold out1_6
  rw [View.canon_unit_zero hz3]
  simp only [View.ld_unit_zero (S := S1x4x16384) hz3, View.ld_unit_zero (S := S40x4) hz2, View.ld_unit_zero (S := S40x1) hz2,
    View.ld_unit_zero (S := S64x40) hz2, View.ld_unit_zero (S := S64x1) hz2]
  rw [iblk1_x V c t, iblk1_w0 V c t, iblk1_b0 V c t, iblk1_w1 V c t, iblk1_sc V c t, iblk1_sh V c t]
  have e := idx_facts1 t
  funext j
  rw [View.read_apply]
  unfold normed
  have hj0 : (j 0).val < 1 := (j 0).isLt
  have hn : (⟨((((cfg1.win 6).blk t).view.emb j) 0).val, ((((cfg1.win 6).blk t).view.emb j) 0).isLt⟩ : Fin 128) = tn1 t := by
    apply Fin.ext
    show win1_6.index t (0 : Fin 3) * 1 + 1 * (j 0).val = t.val
    rw [e.w6.1]; omega
  have hi : (ix3 (0 : Fin 1) (⟨((((cfg1.win 6).blk t).view.emb j) 1).val, ((((cfg1.win 6).blk t).view.emb j) 1).isLt⟩ : Fin 64)
      (⟨((((cfg1.win 6).blk t).view.emb j) 2).val, ((((cfg1.win 6).blk t).view.emb j) 2).isLt⟩ : Fin 16384) : S1x64x16384.Idx) = j := by
    funext a
    apply Fin.ext
    match a with
    | ⟨0, _⟩ =>
      show (0 : Nat) = (j 0).val
      omega
    | ⟨1, _⟩ =>
      show win1_6.index t (1 : Fin 3) * 64 + 1 * (j 1).val = (j 1).val
      rw [e.w6.2.1]; omega
    | ⟨2, _⟩ =>
      show win1_6.index t (2 : Fin 3) * 16384 + 1 * (j 2).val = (j 2).val
      rw [e.w6.2.2]; omega
  show _ = k1_pay1 _ _ _ _ _ _ _
  rw [hn, hi]

/-- Every entry of the result array is in the block of the point with its batch index. -/
theorem cover1_6_all (i : S128x64x16384.Idx) : ∃ t : Fin cfg1.N, (cfg1.win 6).flush t = true ∧ i ∈ ((cfg1.win 6).blk t).view.set := by
  have hi0 : (i 0).val < 128 := (i 0).isLt
  have hi1 : (i 1).val < 64 := (i 1).isLt
  have hi2 : (i 2).val < 16384 := (i 2).isLt
  let t : Fin cfg1.N := ⟨(i 0).val, lt_of_lt_of_eq hi0 (show cfg1.N = 128 from N_1).symm⟩
  have e := idx_facts1 t
  refine ⟨t, flush1_6 t, ?_⟩
  show i ∈ ((View.whole main_v35).slice (win1_6.rect t)).set
  rw [View.set_slice_whole, Rect.mem_set_unit]
  intro a
  match a with
  | ⟨0, _⟩ =>
    show win1_6.index t (0 : Fin 3) * 1 ≤ (i 0).val ∧ (i 0).val < win1_6.index t (0 : Fin 3) * 1 + 1
    rw [e.w6.1]
    show (i 0).val * 1 ≤ (i 0).val ∧ (i 0).val < (i 0).val * 1 + 1
    omega
  | ⟨1, _⟩ =>
    show win1_6.index t (1 : Fin 3) * 64 ≤ (i 1).val ∧ (i 1).val < win1_6.index t (1 : Fin 3) * 64 + 64
    rw [e.w6.2.1]; omega
  | ⟨2, _⟩ =>
    show win1_6.index t (2 : Fin 3) * 16384 ≤ (i 2).val ∧ (i 2).val < win1_6.index t (2 : Fin 3) * 16384 + 16384
    rw [e.w6.2.2]; omega

/-- After the second call its result array holds `normed`. -/
theorem arr1_6 (c : Dev nD) : (dat1 V c).arrAt 6 cfg1.N = normed V c :=
  (dat1 V c).arrAt_eq_of_cover 6 (normed V c) (fun t _ => flushed1_6_eq V c t) (cover1_6_all)

end Cert.KernelIdeal.Hand1

end
-- ==== Proof.Tail.lean ====
/-
  The batch-normalisation fold both programs run on the host between their two pallas_calls, as ONE function of the
  batch sums: with mean = S / M and var = max (Q / M - mean · mean, Z), the folded scale is γ · rsqrt (var + E) and
  the folded shift β - mean · scale (M the element count, Z the zero column, E the epsilon column, all [64, 1]).
  Both programs apply exactly these operations in this data flow, so the fold is carried whole and never opened.
-/
import Idealize.ShloMosaic.PureOps.Contract

noncomputable section

namespace Cert.Bridge

open Idealize.ShloMosaic

variable {F : FTy → Type} [FloatOps F]

/-- The folded scale, γ · rsqrt (max (Q / M - (S / M) · (S / M), Z) + E). -/
def scaleOf (M Z E S Q g : FVec F ⟨2, ![64, 1]⟩ .f32) : FVec F ⟨2, ![64, 1]⟩ .f32 :=
  mulf g (Host.rsqrt (addf (maximumf (subf (Host.divf Q M) (mulf (Host.divf S M) (Host.divf S M))) Z) E))

/-- The folded shift, β - (S / M) · scale. -/
def shiftOf (M Z E S Q g b : FVec F ⟨2, ![64, 1]⟩ .f32) : FVec F ⟨2, ![64, 1]⟩ .f32 :=
  subf b (mulf (Host.divf S M) (scaleOf M Z E S Q g))

end Cert.Bridge

end
-- ==== Proof.KMid.lean ====
/-
  The host stretch between the kernel's two pallas_calls, read as values: the folded scale and shift that the second
  call multiplies and adds are the batch-normalisation fold (`scaleOf`, `shiftOf`) of the batch sums of the first
  call's two result arrays with γ and β; and the input and the three weight arrays reach the second call as they
  entered the first (no host operation of the stretch writes them, and the first call only reads them).
-/
import proofs.«106257_g2000300775167955_pallasbulk_386_4_alg».proof.Proof.Gen.KernelIdeal.Frame
import proofs.«106257_g2000300775167955_pallasbulk_386_4_alg».proof.Proof.Tail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Bridge

variable {F : FTy → Type} [FloatOps F]
variable (m : (ℓ : Loc nD τ sig) → Buf (Elt F) ℓ) (ρ : Dev nD → PrngReg)

/-- The element count 128 · 16384 = 2²¹, the zero and the epsilon, each splat over the 64 channels. -/
abbrev Mcol : FVec F S64x1 .f32 := broadcastInDim S64x1 ![] bcast_S_S64x1 (constant S_ .f32 0x4A000000#32)
abbrev Zcol : FVec F S64x1 .f32 := broadcastInDim S64x1 ![] bcast_S_S64x1 (constant S_ .f32 0x00000000#32)
abbrev Ecol : FVec F S64x1 .f32 := broadcastInDim S64x1 ![] bcast_S_S64x1 (constant S_ .f32 0x3727C5AC#32)

/-- The batch sums of the first call's two result arrays, as the host takes them. -/
def Ssum (c : Dev nD) : FVec F S64x1 .f32 :=
  Host.reduceAdd (V2 m ρ c main_v18_0) (constant S_ .f32 0x00000000#32) reducesTo_S128x64x1_S64x1_d0 h_S_
def Qsum (c : Dev nD) : FVec F S64x1 .f32 :=
  Host.reduceAdd (V2 m ρ c main_v18_1) (constant S_ .f32 0x00000000#32) reducesTo_S128x64x1_S64x1_d0 h_S_

/-- γ and β reach the stretch as launched: nothing before it writes them. -/
theorem W2_arg5 (c : Dev nD) : W2 m ρ c (Proc.devRef .tc main_arg5) = m ((c : Thread nD τ).loc main_arg5) :=
  (W2_of_ne m ρ c main_arg5 (by decide)).trans (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg6 (c : Dev nD) : W2 m ρ c (Proc.devRef .tc main_arg6) = m ((c : Thread nD τ).loc main_arg6) :=
  (W2_of_ne m ρ c main_arg6 (by decide)).trans (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

set_option maxHeartbeats 2000000 in
/-- The scale operand of the second call is the fold's scale of the batch sums and γ. -/
theorem V3_scale (c : Dev nD) :
    V3 m ρ c main_v32 = scaleOf Mcol Zcol Ecol (Ssum m ρ c) (Qsum m ρ c) (m ((c : Thread nD τ).loc main_arg5)) := by
  show StableHlo.after hostOps1 (W2 m ρ c) (Proc.devRef .tc main_v32) = _
  after_results_simp
  rw [W2_arg5]
  rfl

set_option maxHeartbeats 2000000 in
/-- The shift operand of the second call is the fold's shift of the batch sums, γ and β. -/
theorem V3_shift (c : Dev nD) :
    V3 m ρ c main_v34 = shiftOf Mcol Zcol Ecol (Ssum m ρ c) (Qsum m ρ c) (m ((c : Thread nD τ).loc main_arg5)) (m ((c : Thread nD τ).loc main_arg6)) := by
  show StableHlo.after hostOps1 (W2 m ρ c) (Proc.devRef .tc main_v34) = _
  after_results_simp
  rw [W2_arg5, W2_arg6]
  rfl

/-- The input and the three weight arrays reach the second call as they entered the first. -/
theorem V3_x (c : Dev nD) : V3 m ρ c main_arg0 = V1 m ρ c main_arg0 :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W2_arr m ρ c 0).trans (((dat0 (V1 m ρ) c).arrAt_in 0 rfl _).trans (A_eq0 (V1 m ρ) c 0)))
theorem V3_w0a (c : Dev nD) : V3 m ρ c main_v3 = V1 m ρ c main_v3 :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W2_arr m ρ c 1).trans (((dat0 (V1 m ρ) c).arrAt_in 1 rfl _).trans (A_eq0 (V1 m ρ) c 1)))
theorem V3_b0a (c : Dev nD) : V3 m ρ c main_v10 = V1 m ρ c main_v10 :=
  (StableHlo.after_of_forall_not_mem (b := Proc.devRef .tc main_v10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W2_arr m ρ c 2).trans (((dat0 (V1 m ρ) c).arrAt_in 2 rfl _).trans (A_eq0 (V1 m ρ) c 2)))
theorem V3_w1a (c : Dev nD) : V3 m ρ c main_v17 = V1 m ρ c main_v17 :=
  (StableHlo.after_of_forall_not_mem (b := Proc.devRef .tc main_v17) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W2_arr m ρ c 3).trans (((dat0 (V1 m ρ) c).arrAt_in 3 rfl _).trans (A_eq0 (V1 m ρ) c 3)))

/-- The input enters the first call as launched. -/
theorem V1_x (c : Dev nD) : V1 m ρ c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KValue.lean ====
/-
  The kernel program's result as ONE function of the launch memory: the second call's stored value for each tile, at
  the augmented weights as the first host stretch leaves them, and at the batch-normalisation fold of the batch sums
  of the first call's stored values with γ and β.
-/
import proofs.«106257_g2000300775167955_pallasbulk_386_4_alg».proof.Proof.KRegion0
import proofs.«106257_g2000300775167955_pallasbulk_386_4_alg».proof.Proof.KRegion1
import proofs.«106257_g2000300775167955_pallasbulk_386_4_alg».proof.Proof.KMid

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Bridge

variable {F : FTy → Type} [FloatOps F]
variable (m : (ℓ : Loc nD τ sig) → Buf (Elt F) ℓ) (ρ : Dev nD → PrngReg)

/-- After the first call its two result arrays hold the per-tile sums and sums of squares. -/
theorem V2_sums (c : Dev nD) : V2 m ρ c main_v18_0 = sums (V1 m ρ) c := (W2_arr m ρ c 4).trans (arr0_4 (V1 m ρ) c)
theorem V2_ssqs (c : Dev nD) : V2 m ρ c main_v18_1 = ssqs (V1 m ρ) c := (W2_arr m ρ c 5).trans (arr0_5 (V1 m ρ) c)

/-- The folded scale and shift the second call is entered with. -/
def scaleK (c : Dev nD) : FVec F S64x1 .f32 :=
  scaleOf Mcol Zcol Ecol
    (Host.reduceAdd (sums (V1 m ρ) c) (constant S_ .f32 0x00000000#32) reducesTo_S128x64x1_S64x1_d0 h_S_)
    (Host.reduceAdd (ssqs (V1 m ρ) c) (constant S_ .f32 0x00000000#32) reducesTo_S128x64x1_S64x1_d0 h_S_)
    (m ((c : Thread nD τ).loc main_arg5))
def shiftK (c : Dev nD) : FVec F S64x1 .f32 :=
  shiftOf Mcol Zcol Ecol
    (Host.reduceAdd (sums (V1 m ρ) c) (constant S_ .f32 0x00000000#32) reducesTo_S128x64x1_S64x1_d0 h_S_)
    (Host.reduceAdd (ssqs (V1 m ρ) c) (constant S_ .f32 0x00000000#32) reducesTo_S128x64x1_S64x1_d0 h_S_)
    (m ((c : Thread nD τ).loc main_arg5)) (m ((c : Thread nD τ).loc main_arg6))

theorem V3_scale' (c : Dev nD) : V3 m ρ c main_v32 = scaleK m ρ c := by
  rw [V3_scale]; unfold Ssum Qsum scaleK; rw [V2_sums, V2_ssqs]
theorem V3_shift' (c : Dev nD) : V3 m ρ c main_v34 = shiftK m ρ c := by
  rw [V3_shift]; unfold Ssum Qsum shiftK; rw [V2_sums, V2_ssqs]

/-- The kernel's result: at (n, q, l) the second call's stored value for tile `n` of the launched input. -/
def resultK (c : Dev nD) : Buf (Elt F) ((c : Thread nD τ).loc main_v35) :=
  fun (i : S128x64x16384.Idx) => k1_pay1 (xtile (m ((c : Thread nD τ).loc main_arg0) : S128x4x16384.Idx → Elt F .f32) ⟨(i 0).val, (i 0).isLt⟩)
    (V1 m ρ c main_v3) (V1 m ρ c main_v10) (V1 m ρ c main_v17) (scaleK m ρ c) (shiftK m ρ c)
    (ix3 0 ⟨(i 1).val, (i 1).isLt⟩ ⟨(i 2).val, (i 2).isLt⟩)

/-- The result buffer at the last boundary of @main is `resultK`. -/
theorem W4_result (c : Dev nD) : W4 m ρ c (Proc.devRef .tc main_v35) = resultK m ρ c := by
  rw [show W4 m ρ c (Proc.devRef .tc main_v35) = (dat1 (V3 m ρ) c).arrAt 6 cfg1.N from W4_arr m ρ c 6, Hand1.arr1_6]
  unfold Hand1.normed resultK
  rw [V3_x, V3_w0a, V3_b0a, V3_w1a, V3_scale', V3_shift', V1_x]

end Cert.KernelIdeal.Hand

end
-- ==== Proof.RRegion0.lean ====
/-
  The statistics pass of the reference program, as a function of the arrays it starts from. Its grid is 128 x 1, so
  its 128 points are the batch elements in order: point `t` has batch index `t` and second coordinate 0. At that
  point the pass reads the slab (t, ·, ·) of the input, a [1, 4, 16384] tile, together with both layers' weight and
  bias arrays entire, and it stores one [1, 1, 64, 1] column into each of two [128, 1, 64, 1] result arrays, at
  position (t, 0, ·, ·). No two points store to the same entry and every entry is stored by the point carrying its
  batch index; hence entry (n, 0, q, 0) of a result array is what the body computes from tile `n`, read at
  (0, 0, q, 0).
-/
import proofs.«106257_g2000300775167955_pallasbulk_386_4_alg».proof.Proof.Gen.ReferenceIdeal.Frame
import proofs.«106257_g2000300775167955_pallasbulk_386_4_alg».proof.Proof.Tile
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.Bridge

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The batch element a point of the 128 x 1 grid stands for: its position in the walk. -/
def tn0 (t : Fin cfg0.N) : Fin 128 := ⟨t.val, lt_of_lt_of_eq t.isLt (show cfg0.N = 128 from N_0)⟩

/-- Where each window's block sits at point `t`, in units of blocks: the input tile and the two result columns are
    at batch position `t` and at 0 on every other axis; the four parameter arrays are a single block, at the origin. -/
structure IdxFacts0 (t : Fin cfg0.N) : Prop where
  w0 : win0_0.index t (0 : Fin 3) = t.val ∧ win0_0.index t (1 : Fin 3) = 0 ∧ win0_0.index t (2 : Fin 3) = 0
  w1 : win0_1.index t (0 : Fin 2) = 0 ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 4) = t.val ∧ win0_5.index t (1 : Fin 4) = 0 ∧ win0_5.index t (2 : Fin 4) = 0
    ∧ win0_5.index t (3 : Fin 4) = 0
  w6 : win0_6.index t (0 : Fin 4) = t.val ∧ win0_6.index t (1 : Fin 4) = 0 ∧ win0_6.index t (2 : Fin 4) = 0
    ∧ win0_6.index t (3 : Fin 4) = 0

/-- These positions hold at each of the 128 points: a finite check over the grid. -/
theorem idx_facts0 : ∀ t : Fin cfg0.N, IdxFacts0 t :=
  fun t => (by decide +kernel : ∀ t : Fin grid0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 4) = t.val ∧ win0_5.index t (1 : Fin 4) = 0 ∧ win0_5.index t (2 : Fin 4) = 0
      ∧ win0_5.index t (3 : Fin 4) = 0)
    ∧ (win0_6.index t (0 : Fin 4) = t.val ∧ win0_6.index t (1 : Fin 4) = 0 ∧ win0_6.index t (2 : Fin 4) = 0
      ∧ win0_6.index t (3 : Fin 4) = 0)) t
    |> fun ⟨a, b, c, d, e, f, g⟩ => ⟨a, b, c, d, e, f, g⟩

/-- Entry (0, k, l) of the input block at point `t` is entry (t, k, l) of the input: the block is tile `t`. -/
theorem iblk0_x (c : Dev nD) (t : Fin cfg0.N) :
    (iblk0 V c 0 t : Vec F S1x4x16384 .f32) = xtile (V c main_arg0 : S128x4x16384.Idx → Elt F .f32) (tn0 t) := by
  have e := idx_facts0 t
  funext y
  unfold iblk0
  rw [View.read_apply]
  show (V c main_arg0 : S128x4x16384.Idx → Elt F .f32) _ = (V c main_arg0 : S128x4x16384.Idx → Elt F .f32) _
  congr 1
  funext a
  apply Fin.ext
  match a with
  | ⟨0, _⟩ =>
    show win0_0.index t (0 : Fin 3) * 1 + 1 * (y 0).val = t.val
    have h0 : (y 0).val < 1 := (y 0).isLt
    rw [e.w0.1]; omega
  | ⟨1, _⟩ =>
    show win0_0.index t (1 : Fin 3) * 4 + 1 * (y 1).val = (y 1).val
    rw [e.w0.2.1]; omega
  | ⟨2, _⟩ =>
    show win0_0.index t (2 : Fin 3) * 16384 + 1 * (y 2).val = (y 2).val
    rw [e.w0.2.2]; omega

/-- A parameter array has one block, itself: entry y of the block is entry y of the array, at every point. First
    layer's weights and bias, then the second layer's. -/
theorem iblk0_w1 (c : Dev nD) (t : Fin cfg0.N) : (iblk0 V c 1 t : Vec F S32x4 .f32) = V c main_arg1 := by
  have e := idx_facts0 t
  funext y
  unfold iblk0
  rw [View.read_apply]
  show (V c main_arg1 : S32x4.Idx → Elt F .f32) _ = (V c main_arg1 : S32x4.Idx → Elt F .f32) y
  congr 1
  funext a
  apply Fin.ext
  match a with
  | ⟨0, _⟩ =>
    show win0_1.index t (0 : Fin 2) * 32 + 1 * (y 0).val = (y 0).val
    rw [e.w1.1]; omega
  | ⟨1, _⟩ =>
    show win0_1.index t (1 : Fin 2) * 4 + 1 * (y 1).val = (y 1).val
    rw [e.w1.2]; omega
theorem iblk0_b1 (c : Dev nD) (t : Fin cfg0.N) : (iblk0 V c 2 t : Vec F S32x1 .f32) = V c main_arg2 := by
  have e := idx_facts0 t
  funext y
  unfold iblk0
  rw [View.read_apply]
  show (V c main_arg2 : S32x1.Idx → Elt F .f32) _ = (V c main_arg2 : S32x1.Idx → Elt F .f32) y
  congr 1
  funext a
  apply Fin.ext
  match a with
  | ⟨0, _⟩ =>
    show win0_2.index t (0 : Fin 2) * 32 + 1 * (y 0).val = (y 0).val
    rw [e.w2.1]; omega
  | ⟨1, _⟩ =>
    show win0_2.index t (1 : Fin 2) * 1 + 1 * (y 1).val = (y 1).val
    rw [e.w2.2]; omega
theorem iblk0_w2 (c : Dev nD) (t : Fin cfg0.N) : (iblk0 V c 3 t : Vec F S64x32 .f32) = V c main_arg3 := by
  have e := idx_facts0 t
  funext y
  unfold iblk0
  rw [View.read_apply]
  show (V c main_arg3 : S64x32.Idx → Elt F .f32) _ = (V c main_arg3 : S64x32.Idx → Elt F .f32) y
  congr 1
  funext a
  apply Fin.ext
  match a with
  | ⟨0, _⟩ =>
    show win0_3.index t (0 : Fin 2) * 64 + 1 * (y 0).val = (y 0).val
    rw [e.w3.1]; omega
  | ⟨1, _⟩ =>
    show win0_3.index t (1 : Fin 2) * 32 + 1 * (y 1).val = (y 1).val
    rw [e.w3.2]; omega
theorem iblk0_b2 (c : Dev nD) (t : Fin cfg0.N) : (iblk0 V c 4 t : Vec F S64x1 .f32) = V c main_arg4 := by
  have e := idx_facts0 t
  funext y
  unfold iblk0
  rw [View.read_apply]
  show (V c main_arg4 : S64x1.Idx → Elt F .f32) _ = (V c main_arg4 : S64x1.Idx → Elt F .f32) y
  congr 1
  funext a
  apply Fin.ext
  match a with
  | ⟨0, _⟩ =>
    show win0_4.index t (0 : Fin 2) * 64 + 1 * (y 0).val = (y 0).val
    rw [e.w4.1]; omega
  | ⟨1, _⟩ =>
    show win0_4.index t (1 : Fin 2) * 1 + 1 * (y 1).val = (y 1).val
    rw [e.w4.2]; omega

/-- The first result array as a whole: entry (n, ·, q, r) is the body's first stored value on tile `n`, at (0, 0, q, r). -/
def sums (c : Dev nD) : Buf (Elt F) ((c : Thread nD τ).loc main_v0_0) :=
  fun (i : S128x1x64x1.Idx) => k0_pay2 (xtile (V c main_arg0 : S128x4x16384.Idx → Elt F .f32) ⟨(i 0).val, (i 0).isLt⟩)
    (V c main_arg1) (V c main_arg2) (V c main_arg3) (V c main_arg4) (ix4 0 0 ⟨(i 2).val, (i 2).isLt⟩ ⟨(i 3).val, (i 3).isLt⟩)
/-- The second result array as a whole, from the body's second stored value in the same way. -/
def ssqs (c : Dev nD) : Buf (Elt F) ((c : Thread nD τ).loc main_v0_1) :=
  fun (i : S128x1x64x1.Idx) => k0_pay3 (xtile (V c main_arg0 : S128x4x16384.Idx → Elt F .f32) ⟨(i 0).val, (i 0).isLt⟩)
    (V c main_arg1) (V c main_arg2) (V c main_arg3) (V c main_arg4) (ix4 0 0 ⟨(i 2).val, (i 2).isLt⟩ ⟨(i 3).val, (i 3).isLt⟩)

/-- The column point `t` stores into the first result array agrees with `sums` on the entries (t, 0, ·, ·): the body
    ran on tile `t` and the whole parameter arrays, and entry j of the column lands at (t, 0, j 2, j 3). -/
theorem flushed0_5_eq (c : Dev nD) (t : Fin cfg0.N) :
    (dat0 V c).flushed 5 t = ((cfg0.win 5).blk t).view.read (Elt F) (sums V c) := by
  show (cfg0.win 5).cut (grid0.coords t) ((dat0 V c).after 5 t) = _
  rw [after0_5]
  unfold out0_5
  rw [View.canon_unit_zero hz4]
  simp only [View.ld_unit_zero (S := S1x4x16384) hz3, View.ld_unit_zero (S := S32x4) hz2, View.ld_unit_zero (S := S32x1) hz2,
    View.ld_unit_zero (S := S64x32) hz2, View.ld_unit_zero (S := S64x1) hz2]
  rw [iblk0_x V c t, iblk0_w1 V c t, iblk0_b1 V c t, iblk0_w2 V c t, iblk0_b2 V c t]
  have e := idx_facts0 t
  funext j
  rw [View.read_apply]
  unfold sums
  have hj0 : (j 0).val < 1 := (j 0).isLt
  have hj1 : (j 1).val < 1 := (j 1).isLt
  have hn : (⟨((((cfg0.win 5).blk t).view.emb j) 0).val, ((((cfg0.win 5).blk t).view.emb j) 0).isLt⟩ : Fin 128) = tn0 t := by
    apply Fin.ext
    show win0_5.index t (0 : Fin 4) * 1 + 1 * (j 0).val = t.val
    rw [e.w5.1]; omega
  have hi : (ix4 (0 : Fin 1) (0 : Fin 1)
      (⟨((((cfg0.win 5).blk t).view.emb j) 2).val, ((((cfg0.win 5).blk t).view.emb j) 2).isLt⟩ : Fin 64)
      (⟨((((cfg0.win 5).blk t).view.emb j) 3).val, ((((cfg0.win 5).blk t).view.emb j) 3).isLt⟩ : Fin 1) : S1x1x64x1.Idx) = j := by
    funext a
    apply Fin.ext
    match a with
    | ⟨0, _⟩ =>
      show (0 : Nat) = (j 0).val
      omega
    | ⟨1, _⟩ =>
      show (0 : Nat) = (j 1).val
      omega
    | ⟨2, _⟩ =>
      show win0_5.index t (2 : Fin 4) * 64 + 1 * (j 2).val = (j 2).val
      rw [e.w5.2.2.1]; omega
    | ⟨3, _⟩ =>
      show win0_5.index t (3 : Fin 4) * 1 + 1 * (j 3).val = (j 3).val
      rw [e.w5.2.2.2]; omega
  show _ = k0_pay2 _ _ _ _ _ _
  rw [hn, hi]

/-- Likewise for the second result array and `ssqs`. -/
theorem flushed0_6_eq (c : Dev nD) (t : Fin cfg0.N) :
    (dat0 V c).flushed 6 t = ((cfg0.win 6).blk t).view.read (Elt F) (ssqs V c) := by
  show (cfg0.win 6).cut (grid0.coords t) ((dat0 V c).after 6 t) = _
  rw [after0_6]
  unfold out0_6
  rw [View.canon_unit_zero hz4]
  simp only [View.ld_unit_zero (S := S1x4x16384) hz3, View.ld_unit_zero (S := S32x4) hz2, View.ld_unit_zero (S := S32x1) hz2,
    View.ld_unit_zero (S := S64x32) hz2, View.ld_unit_zero (S := S64x1) hz2]
  rw [iblk0_x V c t, iblk0_w1 V c t, iblk0_b1 V c t, iblk0_w2 V c t, iblk0_b2 V c t]
  have e := idx_facts0 t
  funext j
  rw [View.read_apply]
  unfold ssqs
  have hj0 : (j 0).val < 1 := (j 0).isLt
  have hj1 : (j 1).val < 1 := (j 1).isLt
  have hn : (⟨((((cfg0.win 6).blk t).view.emb j) 0).val, ((((cfg0.win 6).blk t).view.emb j) 0).isLt⟩ : Fin 128) = tn0 t := by
    apply Fin.ext
    show win0_6.index t (0 : Fin 4) * 1 + 1 * (j 0).val = t.val
    rw [e.w6.1]; omega
  have hi : (ix4 (0 : Fin 1) (0 : Fin 1)
      (⟨((((cfg0.win 6).blk t).view.emb j) 2).val, ((((cfg0.win 6).blk t).view.emb j) 2).isLt⟩ : Fin 64)
      (⟨((((cfg0.win 6).blk t).view.emb j) 3).val, ((((cfg0.win 6).blk t).view.emb j) 3).isLt⟩ : Fin 1) : S1x1x64x1.Idx) = j := by
    funext a
    apply Fin.ext
    match a with
    | ⟨0, _⟩ =>
      show (0 : Nat) = (j 0).val
      omega
    | ⟨1, _⟩ =>
      show (0 : Nat) = (j 1).val
      omega
    | ⟨2, _⟩ =>
      show win0_6.index t (2 : Fin 4) * 64 + 1 * (j 2).val = (j 2).val
      rw [e.w6.2.2.1]; omega
    | ⟨3, _⟩ =>
      show win0_6.index t (3 : Fin 4) * 1 + 1 * (j 3).val = (j 3).val
      rw [e.w6.2.2.2]; omega
  show _ = k0_pay3 _ _ _ _ _ _
  rw [hn, hi]

/-- An entry (n, 0, q, 0) of a result array lies in the column stored by point `n`, and that point does store. -/
theorem cover0_5_all (i : S128x1x64x1.Idx) : ∃ t : Fin cfg0.N, (cfg0.win 5).flush t = true ∧ i ∈ ((cfg0.win 5).blk t).view.set := by
  have hi0 : (i 0).val < 128 := (i 0).isLt
  have hi1 : (i 1).val < 1 := (i 1).isLt
  have hi2 : (i 2).val < 64 := (i 2).isLt
  have hi3 : (i 3).val < 1 := (i 3).isLt
  let t : Fin cfg0.N := ⟨(i 0).val, lt_of_lt_of_eq hi0 (show cfg0.N = 128 from N_0).symm⟩
  have e := idx_facts0 t
  refine ⟨t, flush0_5 t, ?_⟩
  show i ∈ ((View.whole main_v0_0).slice (win0_5.rect t)).set
  rw [View.set_slice_whole, Rect.mem_set_unit]
  intro a
  match a with
  | ⟨0, _⟩ =>
    show win0_5.index t (0 : Fin 4) * 1 ≤ (i 0).val ∧ (i 0).val < win0_5.index t (0 : Fin 4) * 1 + 1
    rw [e.w5.1]
    show (i 0).val * 1 ≤ (i 0).val ∧ (i 0).val < (i 0).val * 1 + 1
    omega
  | ⟨1, _⟩ =>
    show win0_5.index t (1 : Fin 4) * 1 ≤ (i 1).val ∧ (i 1).val < win0_5.index t (1 : Fin 4) * 1 + 1
    rw [e.w5.2.1]; omega
  | ⟨2, _⟩ =>
    show win0_5.index t (2 : Fin 4) * 64 ≤ (i 2).val ∧ (i 2).val < win0_5.index t (2 : Fin 4) * 64 + 64
    rw [e.w5.2.2.1]; omega
  | ⟨3, _⟩ =>
    show win0_5.index t (3 : Fin 4) * 1 ≤ (i 3).val ∧ (i 3).val < win0_5.index t (3 : Fin 4) * 1 + 1
    rw [e.w5.2.2.2]; omega
theorem cover0_6_all (i : S128x1x64x1.Idx) : ∃ t : Fin cfg0.N, (cfg0.win 6).flush t = true ∧ i ∈ ((cfg0.win 6).blk t).view.set := by
  have hi0 : (i 0).val < 128 := (i 0).isLt
  have hi1 : (i 1).val < 1 := (i 1).isLt
  have hi2 : (i 2).val < 64 := (i 2).isLt
  have hi3 : (i 3).val < 1 := (i 3).isLt
  let t : Fin cfg0.N := ⟨(i 0).val, lt_of_lt_of_eq hi0 (show cfg0.N = 128 from N_0).symm⟩
  have e := idx_facts0 t
  refine ⟨t, flush0_6 t, ?_⟩
  show i ∈ ((View.whole main_v0_1).slice (win0_6.rect t)).set
  rw [View.set_slice_whole, Rect.mem_set_unit]
  intro a
  match a with
  | ⟨0, _⟩ =>
    show win0_6.index t (0 : Fin 4) * 1 ≤ (i 0).val ∧ (i 0).val < win0_6.index t (0 : Fin 4) * 1 + 1
    rw [e.w6.1]
    show (i 0).val * 1 ≤ (i 0).val ∧ (i 0).val < (i 0).val * 1 + 1
    omega
  | ⟨1, _⟩ =>
    show win0_6.index t (1 : Fin 4) * 1 ≤ (i 1).val ∧ (i 1).val < win0_6.index t (1 : Fin 4) * 1 + 1
    rw [e.w6.2.1]; omega
  | ⟨2, _⟩ =>
    show win0_6.index t (2 : Fin 4) * 64 ≤ (i 2).val ∧ (i 2).val < win0_6.index t (2 : Fin 4) * 64 + 64
    rw [e.w6.2.2.1]; omega
  | ⟨3, _⟩ =>
    show win0_6.index t (3 : Fin 4) * 1 ≤ (i 3).val ∧ (i 3).val < win0_6.index t (3 : Fin 4) * 1 + 1
    rw [e.w6.2.2.2]; omega

/-- Once all 128 points have run, the two result arrays are `sums` and `ssqs`: every entry was stored, and each
    store agrees with these arrays. -/
theorem arr0_5 (c : Dev nD) : (dat0 V c).arrAt 5 cfg0.N = sums V c :=
  (dat0 V c).arrAt_eq_of_cover 5 (sums V c) (fun t _ => flushed0_5_eq V c t) (cover0_5_all)
theorem arr0_6 (c : Dev nD) : (dat0 V c).arrAt 6 cfg0.N = ssqs V c :=
  (dat0 V c).arrAt_eq_of_cover 6 (ssqs V c) (fun t _ => flushed0_6_eq V c t) (cover0_6_all)

end Cert.ReferenceIdeal.Hand

end
-- ==== Proof.RRegion1.lean ====
/-
  The normalisation pass of the reference program, as a function of the arrays it starts from. The grid is again
  128 x 1: point `t` is batch element `t`. There the pass reads the slab (t, ·, ·) of the input as a [1, 4, 16384]
  tile and six small arrays entire (the per-channel scale and shift columns, and both layers' weights and biases), and
  stores a [1, 64, 16384] slab at (t, ·, ·) of the [128, 64, 16384] result. The slabs are disjoint and exhaust the
  result, so entry (n, q, l) of the result is what the body computes from tile `n`, read at (0, q, l).
-/
import proofs.«106257_g2000300775167955_pallasbulk_386_4_alg».proof.Proof.Gen.ReferenceIdeal.Frame
import proofs.«106257_g2000300775167955_pallasbulk_386_4_alg».proof.Proof.Tile
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand1

open Cert.ReferenceIdeal Cert.ReferenceIdeal.Gen Cert.Bridge

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The batch element a point of the 128 x 1 grid stands for: its position in the walk. -/
def tn1 (t : Fin cfg1.N) : Fin 128 := ⟨t.val, lt_of_lt_of_eq t.isLt (show cfg1.N = 128 from N_1)⟩

/-- Where each window's block sits at point `t`, in units of blocks: the input tile and the result slab are at batch
    position `t` and at 0 on the other two axes; each of the six small arrays is a single block, at the origin. -/
structure IdxFacts1 (t : Fin cfg1.N) : Prop where
  w0 : win1_0.index t (0 : Fin 3) = t.val ∧ win1_0.index t (1 : Fin 3) = 0 ∧ win1_0.index t (2 : Fin 3) = 0
  w1 : win1_1.index t (0 : Fin 2) = 0 ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 3) = t.val ∧ win1_7.index t (1 : Fin 3) = 0 ∧ win1_7.index t (2 : Fin 3) = 0

/-- These positions hold at each of the 128 points: a finite check over the grid. -/
theorem idx_facts1 : ∀ t : Fin cfg1.N, IdxFacts1 t :=
  fun t => (by decide +kernel : ∀ t : Fin grid1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 3) = t.val ∧ win1_7.index t (1 : Fin 3) = 0 ∧ win1_7.index t (2 : Fin 3) = 0)) t
    |> fun ⟨a, b, c, d, e, f, g, h⟩ => ⟨a, b, c, d, e, f, g, h⟩

/-- Entry (0, k, l) of the input block at point `t` is entry (t, k, l) of the input: the block is tile `t`. -/
theorem iblk1_x (c : Dev nD) (t : Fin cfg1.N) :
    (iblk1 V c 0 t : Vec F S1x4x16384 .f32) = xtile (V c main_arg0 : S128x4x16384.Idx → Elt F .f32) (tn1 t) := by
  have e := idx_facts1 t
  funext y
  unfold iblk1
  rw [View.read_apply]
  show (V c main_arg0 : S128x4x16384.Idx → Elt F .f32) _ = (V c main_arg0 : S128x4x16384.Idx → Elt F .f32) _
  congr 1
  funext a
  apply Fin.ext
  match a with
  | ⟨0, _⟩ =>
    show win1_0.index t (0 : Fin 3) * 1 + 1 * (y 0).val = t.val
    have h0 : (y 0).val < 1 := (y 0).isLt
    rw [e.w0.1]; omega
  | ⟨1, _⟩ =>
    show win1_0.index t (1 : Fin 3) * 4 + 1 * (y 1).val = (y 1).val
    rw [e.w0.2.1]; omega
  | ⟨2, _⟩ =>
    show win1_0.index t (2 : Fin 3) * 16384 + 1 * (y 2).val = (y 2).val
    rw [e.w0.2.2]; omega

/-- Each small array has one block, itself: entry y of the block is entry y of the array, at every point. In window
    order: the scale column, the shift column, then the first layer's weights and bias and the second layer's. -/
theorem iblk1_sc (c : Dev nD) (t : Fin cfg1.N) : (iblk1 V c 1 t : Vec F S64x1 .f32) = V c main_v14 := by
  have e := idx_facts1 t
  funext y
  unfold iblk1
  rw [View.read_apply]
  show (V c main_v14 : S64x1.Idx → Elt F .f32) _ = (V c main_v14 : S64x1.Idx → Elt F .f32) y
  congr 1
  funext a
  apply Fin.ext
  match a with
  | ⟨0, _⟩ =>
    show win1_1.index t (0 : Fin 2) * 64 + 1 * (y 0).val = (y 0).val
    rw [e.w1.1]; omega
  | ⟨1, _⟩ =>
    show win1_1.index t (1 : Fin 2) * 1 + 1 * (y 1).val = (y 1).val
    rw [e.w1.2]; omega
theorem iblk1_sh (c : Dev nD) (t : Fin cfg1.N) : (iblk1 V c 2 t : Vec F S64x1 .f32) = V c main_v16 := by
  have e := idx_facts1 t
  funext y
  unfold iblk1
  rw [View.read_apply]
  show (V c main_v16 : S64x1.Idx → Elt F .f32) _ = (V c main_v16 : S64x1.Idx → Elt F .f32) y
  congr 1
  funext a
  apply Fin.ext
  match a with
  | ⟨0, _⟩ =>
    show win1_2.index t (0 : Fin 2) * 64 + 1 * (y 0).val = (y 0).val
    rw [e.w2.1]; omega
  | ⟨1, _⟩ =>
    show win1_2.index t (1 : Fin 2) * 1 + 1 * (y 1).val = (y 1).val
    rw [e.w2.2]; omega
theorem iblk1_w1 (c : Dev nD) (t : Fin cfg1.N) : (iblk1 V c 3 t : Vec F S32x4 .f32) = V c main_arg1 := by
  have e := idx_facts1 t
  funext y
  unfold iblk1
  rw [View.read_apply]
  show (V c main_arg1 : S32x4.Idx → Elt F .f32) _ = (V c main_arg1 : S32x4.Idx → Elt F .f32) y
  congr 1
  funext a
  apply Fin.ext
  match a with
  | ⟨0, _⟩ =>
    show win1_3.index t (0 : Fin 2) * 32 + 1 * (y 0).val = (y 0).val
    rw [e.w3.1]; omega
  | ⟨1, _⟩ =>
    show win1_3.index t (1 : Fin 2) * 4 + 1 * (y 1).val = (y 1).val
    rw [e.w3.2]; omega
theorem iblk1_b1 (c : Dev nD) (t : Fin cfg1.N) : (iblk1 V c 4 t : Vec F S32x1 .f32) = V c main_arg2 := by
  have e := idx_facts1 t
  funext y
  unfold iblk1
  rw [View.read_apply]
  show (V c main_arg2 : S32x1.Idx → Elt F .f32) _ = (V c main_arg2 : S32x1.Idx → Elt F .f32) y
  congr 1
  funext a
  apply Fin.ext
  match a with
  | ⟨0, _⟩ =>
    show win1_4.index t (0 : Fin 2) * 32 + 1 * (y 0).val = (y 0).val
    rw [e.w4.1]; omega
  | ⟨1, _⟩ =>
    show win1_4.index t (1 : Fin 2) * 1 + 1 * (y 1).val = (y 1).val
    rw [e.w4.2]; omega
theorem iblk1_w2 (c : Dev nD) (t : Fin cfg1.N) : (iblk1 V c 5 t : Vec F S64x32 .f32) = V c main_arg3 := by
  have e := idx_facts1 t
  funext y
  unfold iblk1
  rw [View.read_apply]
  show (V c main_arg3 : S64x32.Idx → Elt F .f32) _ = (V c main_arg3 : S64x32.Idx → Elt F .f32) y
  congr 1
  funext a
  apply Fin.ext
  match a with
  | ⟨0, _⟩ =>
    show win1_5.index t (0 : Fin 2) * 64 + 1 * (y 0).val = (y 0).val
    rw [e.w5.1]; omega
  | ⟨1, _⟩ =>
    show win1_5.index t (1 : Fin 2) * 32 + 1 * (y 1).val = (y 1).val
    rw [e.w5.2]; omega
theorem iblk1_b2 (c : Dev nD) (t : Fin cfg1.N) : (iblk1 V c 6 t : Vec F S64x1 .f32) = V c main_arg4 := by
  have e := idx_facts1 t
  funext y
  unfold iblk1
  rw [View.read_apply]
  show (V c main_arg4 : S64x1.Idx → Elt F .f32) _ = (V c main_arg4 : S64x1.Idx → Elt F .f32) y
  congr 1
  funext a
  apply Fin.ext
  match a with
  | ⟨0, _⟩ =>
    show win1_6.index t (0 : Fin 2) * 64 + 1 * (y 0).val = (y 0).val
    rw [e.w6.1]; omega
  | ⟨1, _⟩ =>
    show win1_6.index t (1 : Fin 2) * 1 + 1 * (y 1).val = (y 1).val
    rw [e.w6.2]; omega

/-- The result array as a whole: entry (n, q, l) is the body's stored value on tile `n`, at (0, q, l). The body takes
    the tile, the two layers' parameters, and then the scale and the shift. -/
def normed (c : Dev nD) : Buf (Elt F) ((c : Thread nD τ).loc main_v17) :=
  fun (i : S128x64x16384.Idx) => k1_pay1 (xtile (V c main_arg0 : S128x4x16384.Idx → Elt F .f32) ⟨(i 0).val, (i 0).isLt⟩)
    (V c main_arg1) (V c main_arg2) (V c main_arg3) (V c main_arg4) (V c main_v14) (V c main_v16)
    (ix3 0 ⟨(i 1).val, (i 1).isLt⟩ ⟨(i 2).val, (i 2).isLt⟩)

/-- The slab point `t` stores agrees with `normed` on the entries (t, ·, ·): the body ran on tile `t` and the whole
    small arrays, and entry j of the slab lands at (t, j 1, j 2). -/
theorem flushed1_7_eq (c : Dev nD) (t : Fin cfg1.N) :
    (dat1 V c).flushed 7 t = ((cfg1.win 7).blk t).view.read (Elt F) (normed V c) := by
  show (cfg1.win 7).cut (grid1.coords t) ((dat1 V c).after 7 t) = _
  rw [after1_7]
  unfold out1_7
  rw [View.canon_unit_zero hz3]
  simp only [View.ld_unit_zero (S := S1x4x16384) hz3, View.ld_unit_zero (S := S32x4) hz2, View.ld_unit_zero (S := S32x1) hz2,
    View.ld_unit_zero (S := S64x32) hz2, View.ld_unit_zero (S := S64x1) hz2]
  rw [iblk1_x V c t, iblk1_sc V c t, iblk1_sh V c t, iblk1_w1 V c t, iblk1_b1 V c t, iblk1_w2 V c t, iblk1_b2 V c t]
  have e := idx_facts1 t
  funext j
  rw [View.read_apply]
  unfold normed
  have hj0 : (j 0).val < 1 := (j 0).isLt
  have hn : (⟨((((cfg1.win 7).blk t).view.emb j) 0).val, ((((cfg1.win 7).blk t).view.emb j) 0).isLt⟩ : Fin 128) = tn1 t := by
    apply Fin.ext
    show win1_7.index t (0 : Fin 3) * 1 + 1 * (j 0).val = t.val
    rw [e.w7.1]; omega
  have hi : (ix3 (0 : Fin 1) (⟨((((cfg1.win 7).blk t).view.emb j) 1).val, ((((cfg1.win 7).blk t).view.emb j) 1).isLt⟩ : Fin 64)
      (⟨((((cfg1.win 7).blk t).view.emb j) 2).val, ((((cfg1.win 7).blk t).view.emb j) 2).isLt⟩ : Fin 16384) : S1x64x16384.Idx) = j := by
    funext a
    apply Fin.ext
    match a with
    | ⟨0, _⟩ =>
      show (0 : Nat) = (j 0).val
      omega
    | ⟨1, _⟩ =>
      show win1_7.index t (1 : Fin 3) * 64 + 1 * (j 1).val = (j 1).val
      rw [e.w7.2.1]; omega
    | ⟨2, _⟩ =>
      show win1_7.index t (2 : Fin 3) * 16384 + 1 * (j 2).val = (j 2).val
      rw [e.w7.2.2]; omega
  show _ = k1_pay1 _ _ _ _ _ _ _ _
  rw [hn, hi]

/-- An entry (n, q, l) of the result lies in the slab stored by point `n`, and that point does store. -/
theorem cover1_7_all (i : S128x64x16384.Idx) : ∃ t : Fin cfg1.N, (cfg1.win 7).flush t = true ∧ i ∈ ((cfg1.win 7).blk t).view.set := by
  have hi0 : (i 0).val < 128 := (i 0).isLt
  have hi1 : (i 1).val < 64 := (i 1).isLt
  have hi2 : (i 2).val < 16384 := (i 2).isLt
  let t : Fin cfg1.N := ⟨(i 0).val, lt_of_lt_of_eq hi0 (show cfg1.N = 128 from N_1).symm⟩
  have e := idx_facts1 t
  refine ⟨t, flush1_7 t, ?_⟩
  show i ∈ ((View.whole main_v17).slice (win1_7.rect t)).set
  rw [View.set_slice_whole, Rect.mem_set_unit]
  intro a
  match a with
  | ⟨0, _⟩ =>
    show win1_7.index t (0 : Fin 3) * 1 ≤ (i 0).val ∧ (i 0).val < win1_7.index t (0 : Fin 3) * 1 + 1
    rw [e.w7.1]
    show (i 0).val * 1 ≤ (i 0).val ∧ (i 0).val < (i 0).val * 1 + 1
    omega
  | ⟨1, _⟩ =>
    show win1_7.index t (1 : Fin 3) * 64 ≤ (i 1).val ∧ (i 1).val < win1_7.index t (1 : Fin 3) * 64 + 64
    rw [e.w7.2.1]; omega
  | ⟨2, _⟩ =>
    show win1_7.index t (2 : Fin 3) * 16384 ≤ (i 2).val ∧ (i 2).val < win1_7.index t (2 : Fin 3) * 16384 + 16384
    rw [e.w7.2.2]; omega

/-- Once all 128 points have run, the result array is `normed`: every entry was stored, and each store agrees with it. -/
theorem arr1_7 (c : Dev nD) : (dat1 V c).arrAt 7 cfg1.N = normed V c :=
  (dat1 V c).arrAt_eq_of_cover 7 (normed V c) (fun t _ => flushed1_7_eq V c t) (cover1_7_all)

end Cert.ReferenceIdeal.Hand1

end
-- ==== Proof.RMid.lean ====
/-
  The host stretch between the reference's two pallas_calls, read as values: the folded scale and shift that its
  second call multiplies and adds are the batch-normalisation fold (`scaleOf`, `shiftOf`) of the batch sums of its
  first call's two result arrays with γ and β; and the input and the four parameter arrays reach the second call as
  launched (no host operation writes them, and the first call only reads them).
-/
import proofs.«106257_g2000300775167955_pallasbulk_386_4_alg».proof.Proof.Gen.ReferenceIdeal.Frame
import proofs.«106257_g2000300775167955_pallasbulk_386_4_alg».proof.Proof.Tail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.Bridge

variable {F : FTy → Type} [FloatOps F]
variable (m : (ℓ : Loc nD τ sig) → Buf (Elt F) ℓ) (ρ : Dev nD → PrngReg)

/-- The element count 128 · 16384 = 2²¹, the zero and the epsilon, each splat over the 64 channels. -/
abbrev Mcol : FVec F S64x1 .f32 := broadcastInDim S64x1 ![] bcast_S_S64x1 (constant S_ .f32 0x4A000000#32)
abbrev Zcol : FVec F S64x1 .f32 := broadcastInDim S64x1 ![] bcast_S_S64x1 (constant S_ .f32 0x00000000#32)
abbrev Ecol : FVec F S64x1 .f32 := broadcastInDim S64x1 ![] bcast_S_S64x1 (constant S_ .f32 0x3727C5AC#32)

/-- The batch sums of the first call's two result arrays, as the host takes them (over the batch axis and the
    unit axis of tiles along the length). -/
def Ssum (c : Dev nD) : FVec F S64x1 .f32 :=
  Host.reduceAdd (V1 m ρ c main_v0_0) (constant S_ .f32 0x00000000#32) reducesTo_S128x1x64x1_S64x1_d0_1 h_S_
def Qsum (c : Dev nD) : FVec F S64x1 .f32 :=
  Host.reduceAdd (V1 m ρ c main_v0_1) (constant S_ .f32 0x00000000#32) reducesTo_S128x1x64x1_S64x1_d0_1 h_S_

/-- γ and β reach the stretch as launched: the first call does not touch them. -/
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

set_option maxHeartbeats 2000000 in
/-- The scale operand of the second call is the fold's scale of the batch sums and γ. -/
theorem V2_scale (c : Dev nD) :
    V2 m ρ c main_v14 = scaleOf Mcol Zcol Ecol (Ssum m ρ c) (Qsum m ρ c) (m ((c : Thread nD τ).loc main_arg5)) := by
  show StableHlo.after hostOps1 (W1 m ρ c) (Proc.devRef .tc main_v14) = _
  after_results_simp
  rw [W1_arg5]
  rfl

set_option maxHeartbeats 2000000 in
/-- The shift operand of the second call is the fold's shift of the batch sums, γ and β. -/
theorem V2_shift (c : Dev nD) :
    V2 m ρ c main_v16 = shiftOf Mcol Zcol Ecol (Ssum m ρ c) (Qsum m ρ c) (m ((c : Thread nD τ).loc main_arg5)) (m ((c : Thread nD τ).loc main_arg6)) := by
  show StableHlo.after hostOps1 (W1 m ρ c) (Proc.devRef .tc main_v16) = _
  after_results_simp
  rw [W1_arg5, W1_arg6]
  rfl

/-- The input and the four parameter arrays reach the second call as launched. -/
theorem V2_arg0 (c : Dev nD) : V2 m ρ c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W1_arr m ρ c 0).trans (((dat0 (V0 m ρ) c).arrAt_in 0 rfl _).trans (A_eq0 (V0 m ρ) c 0)))
theorem V2_arg1 (c : Dev nD) : V2 m ρ c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W1_arr m ρ c 1).trans (((dat0 (V0 m ρ) c).arrAt_in 1 rfl _).trans (A_eq0 (V0 m ρ) c 1)))
theorem V2_arg2 (c : Dev nD) : V2 m ρ c main_arg2 = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W1_arr m ρ c 2).trans (((dat0 (V0 m ρ) c).arrAt_in 2 rfl _).trans (A_eq0 (V0 m ρ) c 2)))
theorem V2_arg3 (c : Dev nD) : V2 m ρ c main_arg3 = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W1_arr m ρ c 3).trans (((dat0 (V0 m ρ) c).arrAt_in 3 rfl _).trans (A_eq0 (V0 m ρ) c 3)))
theorem V2_arg4 (c : Dev nD) : V2 m ρ c main_arg4 = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((W1_arr m ρ c 4).trans (((dat0 (V0 m ρ) c).arrAt_in 4 rfl _).trans (A_eq0 (V0 m ρ) c 4)))

end Cert.ReferenceIdeal.Hand

end
-- ==== Proof.RValue.lean ====
/-
  The reference program's result as ONE function of the launch memory: the second call's stored value for each tile,
  at the launched parameters, and at the batch-normalisation fold of the batch sums of the first call's stored values
  with γ and β.
-/
import proofs.«106257_g2000300775167955_pallasbulk_386_4_alg».proof.Proof.RRegion0
import proofs.«106257_g2000300775167955_pallasbulk_386_4_alg».proof.Proof.RRegion1
import proofs.«106257_g2000300775167955_pallasbulk_386_4_alg».proof.Proof.RMid

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.Bridge

variable {F : FTy → Type} [FloatOps F]
variable (m : (ℓ : Loc nD τ sig) → Buf (Elt F) ℓ) (ρ : Dev nD → PrngReg)

/-- The contents the first call is entered with are the launch memory. -/
abbrev M0 : (c : Dev nD) → (b : Ref sig .tc) → Buf (Elt F) ((c : Thread nD τ).loc b) := fun c b => m ((c : Thread nD τ).loc b)

theorem V0_eq : V0 m ρ = M0 m := rfl

/-- After the first call its two result arrays hold the per-tile sums and sums of squares. -/
theorem V1_sums (c : Dev nD) : V1 m ρ c main_v0_0 = sums (M0 m) c := (W1_arr m ρ c 5).trans (arr0_5 (V0 m ρ) c)
theorem V1_ssqs (c : Dev nD) : V1 m ρ c main_v0_1 = ssqs (M0 m) c := (W1_arr m ρ c 6).trans (arr0_6 (V0 m ρ) c)

/-- The folded scale and shift the second call is entered with. -/
def scaleR (c : Dev nD) : FVec F S64x1 .f32 :=
  scaleOf Mcol Zcol Ecol
    (Host.reduceAdd (sums (M0 m) c) (constant S_ .f32 0x00000000#32) reducesTo_S128x1x64x1_S64x1_d0_1 h_S_)
    (Host.reduceAdd (ssqs (M0 m) c) (constant S_ .f32 0x00000000#32) reducesTo_S128x1x64x1_S64x1_d0_1 h_S_)
    (m ((c : Thread nD τ).loc main_arg5))
def shiftR (c : Dev nD) : FVec F S64x1 .f32 :=
  shiftOf Mcol Zcol Ecol
    (Host.reduceAdd (sums (M0 m) c) (constant S_ .f32 0x00000000#32) reducesTo_S128x1x64x1_S64x1_d0_1 h_S_)
    (Host.reduceAdd (ssqs (M0 m) c) (constant S_ .f32 0x00000000#32) reducesTo_S128x1x64x1_S64x1_d0_1 h_S_)
    (m ((c : Thread nD τ).loc main_arg5)) (m ((c : Thread nD τ).loc main_arg6))

theorem V2_scale' (c : Dev nD) : V2 m ρ c main_v14 = scaleR m c := by
  rw [V2_scale]; unfold Ssum Qsum scaleR; rw [V1_sums, V1_ssqs]
theorem V2_shift' (c : Dev nD) : V2 m ρ c main_v16 = shiftR m c := by
  rw [V2_shift]; unfold Ssum Qsum shiftR; rw [V1_sums, V1_ssqs]

/-- The reference's result: at (n, q, l) the second call's stored value for tile `n` of the launched input. -/
def resultR (c : Dev nD) : Buf (Elt F) ((c : Thread nD τ).loc main_v17) :=
  fun (i : S128x64x16384.Idx) => k1_pay1 (xtile (m ((c : Thread nD τ).loc main_arg0) : S128x4x16384.Idx → Elt F .f32) ⟨(i 0).val, (i 0).isLt⟩)
    (m ((c : Thread nD τ).loc main_arg1)) (m ((c : Thread nD τ).loc main_arg2)) (m ((c : Thread nD τ).loc main_arg3)) (m ((c : Thread nD τ).loc main_arg4))
    (scaleR m c) (shiftR m c)
    (ix3 0 ⟨(i 1).val, (i 1).isLt⟩ ⟨(i 2).val, (i 2).isLt⟩)

/-- The result buffer at the last boundary of @main is `resultR`. -/
theorem W3_result (c : Dev nD) : W3 m ρ c (Proc.devRef .tc main_v17) = resultR m c := by
  rw [show W3 m ρ c (Proc.devRef .tc main_v17) = (dat1 (V2 m ρ) c).arrAt 7 cfg1.N from W3_arr m ρ c 7, Hand1.arr1_7]
  unfold Hand1.normed resultR
  rw [V2_arg0, V2_arg1, V2_arg2, V2_arg3, V2_arg4, V2_scale', V2_shift']

end Cert.ReferenceIdeal.Hand

end
-- ==== Proof.LibScatterSet.lean ====
import Idealize.ShloMosaic.PureOps.ShapeOps

/-!
# Reading a scatter whose body returns the update

A scatter is the left fold, over the update indices in row-major order, of the step
"if update index `n` lands at result index `i`, overwrite the entry at `i` with the body applied
to the old entry and the update's entry". When the body returns the update (`fun _ b => b`), the
value of the scatter at a result index `i` is

* the update's entry at `j`, when `j` lands at `i` and is the only update index that does
  (`scatter_set_of_hit`);
* the operand's entry at `i`, when no update index lands at `i` (`scatter_set_of_miss`).

`resultIdx?_eq_some` gives the landing index of an update index from the equations
"start + window coordinate = coordinate of `i`" on every operand axis.
-/

namespace Cert.LibScatterSet

open Idealize.ShloMosaic

/-- If on every operand axis the start plus the window coordinate of update index `j` is the
    coordinate of `i`, then `j` lands at `i`. -/
theorem resultIdx?_eq_some {s si u : Shape} (d : ScatterDims s si u) {w : Nat} (j : u.Idx) (idx : IVec si w)
    (i : s.Idx) (h : ∀ a, d.start j idx a + (d.window j a : Int) = ((i a).val : Int)) :
    d.resultIdx? j idx = some i := by
  unfold ScatterDims.resultIdx?
  have hb : ∀ a, 0 ≤ d.start j idx a + d.window j a ∧ d.start j idx a + d.window j a < s.size a := by
    intro a
    have h1 := h a
    have h2 := (i a).isLt
    constructor <;> omega
  rw [dif_pos hb]
  congr 1
  funext a
  apply Fin.ext
  have h1 := h a
  simp only
  omega

section Fold

variable {α : Type} {s si u : Shape} {w : Nat} (d : ScatterDims s si u) (idx : IVec si w) (upd : u.Idx → α)

/-- One step of the fold: update index number `n` (row-major) overwrites the entry it lands at. -/
private def step : (s.Idx → α) → Fin u.numel → (s.Idx → α) := fun r n =>
  match d.resultIdx? (u.rowMajor.symm n) idx with
  | some i => fun i' => if i' = i then (fun _ b => b) (r i) (upd (u.rowMajor.symm n)) else r i'
  | none => r

private theorem scatter_eq_foldl (x : s.Idx → α) :
    Host.scatter d (fun _ b => b) x idx upd = (List.finRange u.numel).foldl (step d idx upd) x := rfl

/-- A step read at `i`: the update's entry when the step's update index lands at `i`, else the old entry. -/
private theorem step_apply (r : s.Idx → α) (n : Fin u.numel) (i : s.Idx) :
    step d idx upd r n i
      = if d.resultIdx? (u.rowMajor.symm n) idx = some i then upd (u.rowMajor.symm n) else r i := by
  unfold step
  generalize d.resultIdx? (u.rowMajor.symm n) idx = o
  cases o with
  | none => simp
  | some i0 =>
    show (if i = i0 then upd (u.rowMajor.symm n) else r i)
      = if some i0 = some i then upd (u.rowMajor.symm n) else r i
    by_cases hi : i = i0
    · subst hi; simp
    · have hne : ¬ (some i0 = some i) := fun h => hi (Option.some.inj h).symm
      rw [if_neg hi, if_neg hne]

/-- Over a list none of whose update indices lands at `i`, the fold leaves the entry at `i` alone. -/
private theorem foldl_miss (L : List (Fin u.numel)) (r : s.Idx → α) (i : s.Idx)
    (h : ∀ n ∈ L, d.resultIdx? (u.rowMajor.symm n) idx ≠ some i) :
    L.foldl (step d idx upd) r i = r i := by
  induction L generalizing r with
  | nil => rfl
  | cons n L ih =>
    rw [List.foldl_cons, ih _ (fun n' hn' => h n' (List.mem_cons_of_mem _ hn')), step_apply,
      if_neg (h n List.mem_cons_self)]

/-- Over a list in which `n0` lands at `i` and is the only one to, the fold's entry at `i` is the
    update's entry at `n0`. -/
private theorem foldl_hit (L : List (Fin u.numel)) (r : s.Idx → α) (i : s.Idx) (n0 : Fin u.numel)
    (hmem : n0 ∈ L) (hn0 : d.resultIdx? (u.rowMajor.symm n0) idx = some i)
    (huniq : ∀ n ∈ L, d.resultIdx? (u.rowMajor.symm n) idx = some i → n = n0) :
    L.foldl (step d idx upd) r i = upd (u.rowMajor.symm n0) := by
  induction L generalizing r with
  | nil => cases hmem
  | cons n L ih =>
    rw [List.foldl_cons]
    by_cases hlater : ∃ n' ∈ L, d.resultIdx? (u.rowMajor.symm n') idx = some i
    · obtain ⟨n', hn', hr'⟩ := hlater
      have e : n' = n0 := huniq n' (List.mem_cons_of_mem _ hn') hr'
      have hn0L : n0 ∈ L := e ▸ hn'
      exact ih _ hn0L (fun m hm => huniq m (List.mem_cons_of_mem _ hm))
    · have hmiss : ∀ n' ∈ L, d.resultIdx? (u.rowMajor.symm n') idx ≠ some i :=
        fun n' hn' hr' => hlater ⟨n', hn', hr'⟩
      rw [foldl_miss d idx upd L _ i hmiss, step_apply]
      have e : n0 = n := by
        rcases List.mem_cons.1 hmem with h | h
        · exact h
        · exact absurd hn0 (hmiss n0 h)
      rw [← e, if_pos hn0]

end Fold

/-- A scatter whose body returns the update, read at an index `i` that exactly one update index
    `j` lands at: the update's entry at `j`. -/
theorem scatter_set_of_hit {α : Type} {s si u : Shape} {w : Nat} (d : ScatterDims s si u) (x : s.Idx → α)
    (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have key := foldl_hit d idx upd (List.finRange u.numel) x i (u.rowMajor j) (List.mem_finRange _)
    (by rw [Equiv.symm_apply_apply]; exact hj)
    (fun n _ hn => by rw [← huniq _ hn, Equiv.apply_symm_apply])
  rw [Equiv.symm_apply_apply] at key
  exact key

/-- A scatter whose body returns the update, read at an index no update index lands at: the
    operand's entry. -/
theorem scatter_set_of_miss {α : Type} {s si u : Shape} {w : Nat} (d : ScatterDims s si u) (x : s.Idx → α)
    (idx : IVec si w) (upd : u.Idx → α) (i : s.Idx)
    (hmiss : ∀ j, d.resultIdx? j idx ≠ some i) : Host.scatter d (fun _ b => b) x idx upd i = x i := by
  rw [scatter_eq_foldl]
  exact foldl_miss d idx upd _ x i (fun n _ => hmiss _)

end Cert.LibScatterSet
-- ==== Proof.KPrelude.lean ====
import proofs.«106257_g2000300775167955_pallasbulk_386_4_alg».proof.Proof.Gen.KernelIdeal.Frame
import proofs.«106257_g2000300775167955_pallasbulk_386_4_alg».proof.Proof.LibScatterSet
import Idealize.ShloMosaic.Lib.ValueIdx
import Idealize.ShloMosaic.Lib.StableHlo.Run
import Idealize.ShloMosaic.Lib.Pipeline.Value
import Idealize.ShloMosaic.PureOps.Ideal.Laws
import Idealize.ShloMosaic.PureOps.IdealRules

/-!
# The three augmented operands, read at an index

Before its first region the program builds three arrays by writing blocks into arrays of zeros:

* a 40×4 array whose rows `0 … 31` are the 32×4 argument and whose rows `32 … 39` are zero;
* a 40×1 array whose rows `0 … 31` are the 32×1 argument, whose row `32` is `1`, the rest zero;
* a 64×40 array whose columns `0 … 31` are the 64×32 argument, whose column `32` is the 64×1
  argument, the rest zero.

Each write is a scatter whose body returns the update, at a literal start; an update index lands at
"start + its window coordinate", so each result index is hit by at most one update index and the
scatter is read there by the hit/miss lemmas. At the ideal values a change of float format is the
identity, the zero word is `0` and the word of `1.0` is `1`.
-/

set_option maxRecDepth 16384

noncomputable section

namespace Cert.KernelIdeal.Hand

open Idealize.ShloMosaic Idealize.ShloMosaic.TcCoe Idealize.SL.Sem Cert.KernelIdeal Cert.KernelIdeal.Gen
open Idealize.ShloMosaic.ValueIdx Cert.LibScatterSet

/-! ## Where an update index lands -/

/-- Update index `j` lands at `i` exactly when, on every operand axis, the start plus `j`'s window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  constructor
  · intro h a
    unfold ScatterDims.resultIdx? at h
    split at h
    · next hb =>
      have e := Option.some.inj h
      subst e
      have hba := hb a
      simp only
      omega
    · cases h
  · exact resultIdx?_eq_some d j idx i

/-- The one-entry start vector `[0]`. -/
abbrev start0 : IVec S1 32 := broadcastInDim S1 ![] bcast_S_S1 (constantI S_ 32 0#32)
/-- The one-entry start vector `[32]`. -/
abbrev start32 : IVec S1 32 := broadcastInDim S1 ![] bcast_S_S1 (constantI S_ 32 32#32)
/-- The start vector `[32, 0]`. -/
abbrev start32_0 : IVec S2 32 := concatenate S2 0 [⟨S1, start32⟩, ⟨S1, start0⟩] concatenates_S1_S1_S2_d0

/-- A 32×4 block at start row `0` of a 40×4 array: `j` lands at its own coordinates. -/
theorem land_40x4 (j : S32x4.Idx) (i : S40x4.Idx) :
    scatter_S40x4_S1_S32x4_01_n_0_0.resultIdx? j start0 = some i ↔ (j 0).val = (i 0).val ∧ (j 1).val = (i 1).val := by
  rw [resultIdx?_eq_some_iff]
  constructor
  · intro h
    have h0 : (0 : Int) + ((j 0).val : Int) = ((i 0).val : Int) := h 0
    have h1 : (0 : Int) + ((j 1).val : Int) = ((i 1).val : Int) := h 1
    omega
  · rintro ⟨h0, h1⟩
    refine Fin.forall_fin_two.2 ⟨?_, ?_⟩
    · show (0 : Int) + ((j 0).val : Int) = ((i 0).val : Int); omega
    · show (0 : Int) + ((j 1).val : Int) = ((i 1).val : Int); omega

/-- A 32×1 block at start row `0` of a 40×1 array: `j` lands at its own coordinates. -/
theorem land_40x1 (j : S32x1.Idx) (i : S40x1.Idx) :
    scatter_S40x1_S1_S32x1_01_n_0_0.resultIdx? j start0 = some i ↔ (j 0).val = (i 0).val ∧ (j 1).val = (i 1).val := by
  rw [resultIdx?_eq_some_iff]
  constructor
  · intro h
    have h0 : (0 : Int) + ((j 0).val : Int) = ((i 0).val : Int) := h 0
    have h1 : (0 : Int) + ((j 1).val : Int) = ((i 1).val : Int) := h 1
    omega
  · rintro ⟨h0, h1⟩
    refine Fin.forall_fin_two.2 ⟨?_, ?_⟩
    · show (0 : Int) + ((j 0).val : Int) = ((i 0).val : Int); omega
    · show (0 : Int) + ((j 1).val : Int) = ((i 1).val : Int); omega

/-- One scalar at start `(32, 0)` of a 40×1 array: it lands at `(32, 0)`. -/
theorem land_one (j : S_.Idx) (i : S40x1.Idx) :
    scatter_S40x1_S2_S__n_01_01_0.resultIdx? j start32_0 = some i ↔ (i 0).val = 32 ∧ (i 1).val = 0 := by
  rw [resultIdx?_eq_some_iff]
  constructor
  · intro h
    have h0 : (32 : Int) + ((0 : Nat) : Int) = ((i 0).val : Int) := h 0
    have h1 : (0 : Int) + ((0 : Nat) : Int) = ((i 1).val : Int) := h 1
    omega
  · rintro ⟨h0, h1⟩
    refine Fin.forall_fin_two.2 ⟨?_, ?_⟩
    · show (32 : Int) + ((0 : Nat) : Int) = ((i 0).val : Int); omega
    · show (0 : Int) + ((0 : Nat) : Int) = ((i 1).val : Int); omega

/-- A 64×32 block at start column `0` of a 64×40 array: `j` lands at its own coordinates. -/
theorem land_64x40 (j : S64x32.Idx) (i : S64x40.Idx) :
    scatter_S64x40_S1_S64x32_01_n_1_0.resultIdx? j start0 = some i ↔ (j 0).val = (i 0).val ∧ (j 1).val = (i 1).val := by
  rw [resultIdx?_eq_some_iff]
  constructor
  · intro h
    have h0 : (0 : Int) + ((j 0).val : Int) = ((i 0).val : Int) := h 0
    have h1 : (0 : Int) + ((j 1).val : Int) = ((i 1).val : Int) := h 1
    omega
  · rintro ⟨h0, h1⟩
    refine Fin.forall_fin_two.2 ⟨?_, ?_⟩
    · show (0 : Int) + ((j 0).val : Int) = ((i 0).val : Int); omega
    · show (0 : Int) + ((j 1).val : Int) = ((i 1).val : Int); omega

/-- A length-64 column at start column `32` of a 64×40 array: entry `j` lands at `(j, 32)`. -/
theorem land_col (j : S64.Idx) (i : S64x40.Idx) :
    scatter_S64x40_S1_S64_0_1_1_0.resultIdx? j start32 = some i ↔ (j 0).val = (i 0).val ∧ (i 1).val = 32 := by
  rw [resultIdx?_eq_some_iff]
  constructor
  · intro h
    have h0 : (0 : Int) + ((j 0).val : Int) = ((i 0).val : Int) := h 0
    have h1 : (32 : Int) + ((0 : Nat) : Int) = ((i 1).val : Int) := h 1
    omega
  · rintro ⟨h0, h1⟩
    refine Fin.forall_fin_two.2 ⟨?_, ?_⟩
    · show (0 : Int) + ((j 0).val : Int) = ((i 0).val : Int); omega
    · show (32 : Int) + ((0 : Nat) : Int) = ((i 1).val : Int); omega

/-! ## Each write read at an index -/

section Reads
variable {α : Type}

/-- Rows `0 … 31` of the 40×4 result are the block's, the other rows the operand's. -/
theorem set_40x4_apply (x : S40x4.Idx → α) (upd : S32x4.Idx → α) (r : Fin 40) (k : Fin 4) :
    Host.scatter scatter_S40x4_S1_S32x4_01_n_0_0 (fun _ b => b) x start0 upd (ix2 r k)
      = if h : r.val < 32 then upd (ix2 ⟨r.val, h⟩ k) else x (ix2 r k) := by
  split
  · next h =>
    refine scatter_set_of_hit _ x _ upd _ (ix2 ⟨r.val, h⟩ k) ((land_40x4 _ _).2 ⟨rfl, rfl⟩) (fun j' hj' => ?_)
    obtain ⟨h0, h1⟩ := (land_40x4 _ _).1 hj'
    funext a
    match a with
    | ⟨0, _⟩ => exact Fin.ext h0
    | ⟨1, _⟩ => exact Fin.ext h1
  · next h =>
    refine scatter_set_of_miss _ x _ upd _ (fun j hj => ?_)
    obtain ⟨h0, -⟩ := (land_40x4 _ _).1 hj
    have h0' : (j 0).val = r.val := h0
    have hlt := idx2_lt0 j
    omega

/-- Rows `0 … 31` of the 40×1 result are the block's, the other rows the operand's. -/
theorem set_40x1_apply (x : S40x1.Idx → α) (upd : S32x1.Idx → α) (r : Fin 40) (k : Fin 1) :
    Host.scatter scatter_S40x1_S1_S32x1_01_n_0_0 (fun _ b => b) x start0 upd (ix2 r k)
      = if h : r.val < 32 then upd (ix2 ⟨r.val, h⟩ k) else x (ix2 r k) := by
  split
  · next h =>
    refine scatter_set_of_hit _ x _ upd _ (ix2 ⟨r.val, h⟩ k) ((land_40x1 _ _).2 ⟨rfl, rfl⟩) (fun j' hj' => ?_)
    obtain ⟨h0, h1⟩ := (land_40x1 _ _).1 hj'
    funext a
    match a with
    | ⟨0, _⟩ => exact Fin.ext h0
    | ⟨1, _⟩ => exact Fin.ext h1
  · next h =>
    refine scatter_set_of_miss _ x _ upd _ (fun j hj => ?_)
    obtain ⟨h0, -⟩ := (land_40x1 _ _).1 hj
    have h0' : (j 0).val = r.val := h0
    have hlt := idx2_lt0 j
    omega

/-- Row `32` of the 40×1 result is the scalar, the other rows the operand's. -/
theorem set_one_apply (x : S40x1.Idx → α) (upd : S_.Idx → α) (r : Fin 40) :
    Host.scatter scatter_S40x1_S2_S__n_01_01_0 (fun _ b => b) x start32_0 upd (ix2 r 0)
      = if r.val = 32 then upd ix0 else x (ix2 r 0) := by
  split
  · next h =>
    exact scatter_set_of_hit _ x _ upd _ ix0 ((land_one _ _).2 ⟨h, rfl⟩) (fun j' _ => eq_ix0 j')
  · next h =>
    refine scatter_set_of_miss _ x _ upd _ (fun j hj => ?_)
    obtain ⟨h0, -⟩ := (land_one _ _).1 hj
    exact h h0

/-- Columns `0 … 31` of the 64×40 result are the block's, the other columns the operand's. -/
theorem set_64x40_apply (x : S64x40.Idx → α) (upd : S64x32.Idx → α) (q : Fin 64) (r : Fin 40) :
    Host.scatter scatter_S64x40_S1_S64x32_01_n_1_0 (fun _ b => b) x start0 upd (ix2 q r)
      = if h : r.val < 32 then upd (ix2 q ⟨r.val, h⟩) else x (ix2 q r) := by
  split
  · next h =>
    refine scatter_set_of_hit _ x _ upd _ (ix2 q ⟨r.val, h⟩) ((land_64x40 _ _).2 ⟨rfl, rfl⟩) (fun j' hj' => ?_)
    obtain ⟨h0, h1⟩ := (land_64x40 _ _).1 hj'
    funext a
    match a with
    | ⟨0, _⟩ => exact Fin.ext h0
    | ⟨1, _⟩ => exact Fin.ext h1
  · next h =>
    refine scatter_set_of_miss _ x _ upd _ (fun j hj => ?_)
    obtain ⟨-, h1⟩ := (land_64x40 _ _).1 hj
    have h1' : (j 1).val = r.val := h1
    have hlt := idx2_lt1 j
    omega

/-- Column `32` of the 64×40 result is the length-64 vector, the other columns the operand's. -/
theorem set_col_apply (x : S64x40.Idx → α) (upd : S64.Idx → α) (q : Fin 64) (r : Fin 40) :
    Host.scatter scatter_S64x40_S1_S64_0_1_1_0 (fun _ b => b) x start32 upd (ix2 q r)
      = if r.val = 32 then upd (ix1 q) else x (ix2 q r) := by
  split
  · next h =>
    refine scatter_set_of_hit _ x _ upd _ (ix1 q) ((land_col _ _).2 ⟨rfl, h⟩) (fun j' hj' => ?_)
    obtain ⟨h0, -⟩ := (land_col _ _).1 hj'
    funext a
    match a with
    | ⟨0, _⟩ => exact Fin.ext h0
  · next h =>
    refine scatter_set_of_miss _ x _ upd _ (fun j hj => ?_)
    obtain ⟨-, h1⟩ := (land_col _ _).1 hj
    exact h h1

end Reads

/-! ## The words -/

/-- The word of `1.0` is the extended real `1`. -/
theorem ofBits_one_f32 : Ideal.ofBits .f32 0x3F800000#32 = 1 := IdealRules.sign_bit.ideal_onePat .f32

variable (m : (ℓ : Loc nD τ sig) → Buf (Elt Ideal) ℓ) (ρ : Dev nD → PrngReg)

/-! ## The three operands when the first region is entered -/

/-- The 40×4 operand: the 32×4 argument over eight rows of zeros. -/
theorem w0a_apply (c : Dev nD) (r : Fin 40) (k : Fin 4) :
    (V1 (F := Ideal) m ρ c main_v3 : S40x4.Idx → EReal) (ix2 r k)
      = if h : r.val < 32 then (m ((c : Thread nD τ).loc main_arg1) : S32x4.Idx → EReal) (ix2 ⟨r.val, h⟩ k) else (0 : EReal) := by
  have e : (V1 (F := Ideal) m ρ c main_v3 : S40x4.Idx → EReal)
      = truncf (F := Ideal) .bf16 (Host.scatter scatter_S40x4_S1_S32x4_01_n_0_0 (fun _ b => b)
          (broadcastInDim S40x4 ![] bcast_S_S40x4 (constant (F := Ideal) S_ .f32 0x00000000#32))
          start0 (m ((c : Thread nD τ).loc main_arg1) : S32x4.Idx → EReal)) bitsLt_bf16_f32 := by
    show StableHlo.after hostOps0 _ (Proc.devRef .tc main_v3) = _
    after_results
  rw [e, truncf_apply, set_40x4_apply]
  split
  · rfl
  · exact Ideal.ofBits_zero_f32

/-- The 40×1 operand: the 32×1 argument, then a `1`, then zeros. -/
theorem b0a_apply (c : Dev nD) (r : Fin 40) :
    (V1 (F := Ideal) m ρ c main_v10 : S40x1.Idx → EReal) (ix2 r 0)
      = if h : r.val < 32 then (m ((c : Thread nD τ).loc main_arg2) : S32x1.Idx → EReal) (ix2 ⟨r.val, h⟩ 0)
        else if r.val = 32 then (1 : EReal) else (0 : EReal) := by
  have e : (V1 (F := Ideal) m ρ c main_v10 : S40x1.Idx → EReal)
      = Host.scatter scatter_S40x1_S2_S__n_01_01_0 (fun _ b => b)
          (Host.scatter scatter_S40x1_S1_S32x1_01_n_0_0 (fun _ b => b)
            (broadcastInDim S40x1 ![] bcast_S_S40x1 (constant (F := Ideal) S_ .f32 0x00000000#32))
            start0 (m ((c : Thread nD τ).loc main_arg2) : S32x1.Idx → EReal))
          start32_0 (constant (F := Ideal) S_ .f32 0x3F800000#32) := by
    show StableHlo.after hostOps0 _ (Proc.devRef .tc main_v10) = _
    after_results
  rw [e, set_one_apply, set_40x1_apply]
  by_cases h : r.val < 32
  · rw [dif_pos h, dif_pos h, if_neg (by omega)]
  · rw [dif_neg h, dif_neg h]
    split
    · exact ofBits_one_f32
    · exact Ideal.ofBits_zero_f32

/-- The 64×40 operand: the 64×32 argument, then the 64×1 argument as a column, then zeros. -/
theorem w1a_apply (c : Dev nD) (q : Fin 64) (r : Fin 40) :
    (V1 (F := Ideal) m ρ c main_v17 : S64x40.Idx → EReal) (ix2 q r)
      = if h : r.val < 32 then (m ((c : Thread nD τ).loc main_arg3) : S64x32.Idx → EReal) (ix2 q ⟨r.val, h⟩)
        else if r.val = 32 then (m ((c : Thread nD τ).loc main_arg4) : S64x1.Idx → EReal) (ix2 q 0) else (0 : EReal) := by
  have e : (V1 (F := Ideal) m ρ c main_v17 : S64x40.Idx → EReal)
      = truncf (F := Ideal) .bf16 (Host.scatter scatter_S64x40_S1_S64_0_1_1_0 (fun _ b => b)
          (Host.scatter scatter_S64x40_S1_S64x32_01_n_1_0 (fun _ b => b)
            (broadcastInDim S64x40 ![] bcast_S_S64x40 (constant (F := Ideal) S_ .f32 0x00000000#32))
            start0 (m ((c : Thread nD τ).loc main_arg3) : S64x32.Idx → EReal))
          start32 (shapeCast S64 (m ((c : Thread nD τ).loc main_arg4) : S64x1.Idx → EReal) shapeCasts_S64x1_S64)) bitsLt_bf16_f32 := by
    show StableHlo.after hostOps0 _ (Proc.devRef .tc main_v17) = _
    after_results
    rfl
  have hcast : shapeCast S64 (m ((c : Thread nD τ).loc main_arg4) : S64x1.Idx → EReal) shapeCasts_S64x1_S64 (ix1 q)
      = (m ((c : Thread nD τ).loc main_arg4) : S64x1.Idx → EReal) (ix2 q 0) := by
    refine shapeCast_apply _ _ _ _ ?_
    show (S64x1.rowMajor (ix2 q 0)).val = (S64.rowMajor (ix1 q)).val
    rw [Shape.rowMajor_val_two, Shape.rowMajor_val_one]
    show q.val * 1 + 0 = q.val
    omega
  rw [e, truncf_apply, set_col_apply, set_64x40_apply, hcast]
  by_cases h : r.val < 32
  · rw [dif_pos h, dif_pos h, if_neg (by omega)]
  · rw [dif_neg h, dif_neg h]
    split
    · rfl
    · exact Ideal.ofBits_zero_f32

end Cert.KernelIdeal.Hand
-- ==== Proof.Spec.lean ====
import Idealize.ShloMosaic.PureOps.Ideal
import Mathlib.Algebra.BigOperators.Fin

/-!
# A sum over forty terms whose tail carries one extra summand

A family `g` on `Fin 40` that agrees with `f` on the first thirty-two indices,
takes the value `b` at index thirty-two and vanishes on the remaining seven
indices has total `∑ f + b`.  The statement is over the extended reals, where
addition is commutative and associative and `x + 0 = x` for every `x`.
-/

namespace Cert.Bridge

open BigOperators

/-- `∑_{r<40} g r = ∑_{r<32} f r + b` when `g` is `f` below 32, `b` at 32 and `0` above. -/
theorem aug_sum (f : Fin 32 → EReal) (b : EReal) (g : Fin 40 → EReal)
    (hg : ∀ r : Fin 40, g r = if h : r.val < 32 then f ⟨r.val, h⟩ else if r.val = 32 then b else 0) :
    ∑ r : Fin 40, g r = ∑ r : Fin 32, f r + b := by
  -- split the index range as 32 + 8
  have hsplit : ∑ r : Fin 40, g r
      = ∑ i : Fin 32, g (Fin.castAdd 8 i) + ∑ j : Fin 8, g (Fin.natAdd 32 j) :=
    Fin.sum_univ_add (a := 32) (b := 8) g
  -- the head is the sum of `f`
  have hhead : ∑ i : Fin 32, g (Fin.castAdd 8 i) = ∑ i : Fin 32, f i := by
    refine Finset.sum_congr rfl (fun i _ => ?_)
    rw [hg]
    have hi : (Fin.castAdd 8 i).val < 32 := i.isLt
    rw [dif_pos hi]
    exact congrArg f (Fin.ext rfl)
  -- the tail is `b` at its first index and zero at the other seven
  have htail : ∑ j : Fin 8, g (Fin.natAdd 32 j) = b := by
    have hz : ∀ j : Fin 8, j ≠ 0 → g (Fin.natAdd 32 j) = 0 := by
      intro j hj
      have hv : (Fin.natAdd 32 j).val = 32 + j.val := rfl
      have hj' : j.val ≠ 0 := fun h => hj (Fin.ext h)
      have hlt : ¬ (Fin.natAdd 32 j).val < 32 := by omega
      have hne : ¬ (Fin.natAdd 32 j).val = 32 := by omega
      rw [hg, dif_neg hlt, if_neg hne]
    have h0 : g (Fin.natAdd 32 (0 : Fin 8)) = b := by
      have hv : (Fin.natAdd 32 (0 : Fin 8)).val = 32 := rfl
      have hlt : ¬ (Fin.natAdd 32 (0 : Fin 8)).val < 32 := by omega
      rw [hg, dif_neg hlt, if_pos hv]
    rw [Finset.sum_eq_single (0 : Fin 8) (fun j _ hj => hz j hj)
      (fun h => absurd (Finset.mem_univ _) h)]
    exact h0
  rw [hsplit, hhead, htail]

end Cert.Bridge
-- ==== Proof.StackEq.lean ====
import proofs.«106257_g2000300775167955_pallasbulk_386_4_alg».proof.Proof.Gen.KernelIdeal.Skeleton
import proofs.«106257_g2000300775167955_pallasbulk_386_4_alg».proof.Proof.Gen.ReferenceIdeal.Skeleton
import proofs.«106257_g2000300775167955_pallasbulk_386_4_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The padded two-layer stack equals the plain one

Both programs compute, on one `[4, 16384]` tile `x`, the stack
`relu (W₁ · relu (W₀ · x + b₀) + b₁)`.  One of them pads the hidden layer from
32 to 40 rows: rows 32..39 of its first weight matrix vanish, its first bias is
`1` at row 32 and `0` above, and column 32 of its second weight matrix holds
`b₁` while columns 33..39 vanish; it adds no second bias.  Hidden row 32 is then
`relu (0 + 1) = 1` and carries `b₁` through the second product, and hidden rows
above 32 meet a zero weight.  Over the extended reals `0 * x = 0` and
`x * 1 = x` hold for every `x`, so
`∑_{r<40} W₁ᵃ[q,r] · h[r] = ∑_{r<32} W₁[q,r] · h[r] + b₁[q]`.
-/

noncomputable section

namespace Cert.Bridge

open Idealize.ShloMosaic Idealize.SL.Sem Idealize.ShloMosaic.ValueIdx
open scoped BigOperators

/-! ## A product of two matrices read at an index -/

/-- A `[m, k] × [k, n]` product with one contracting axis (the left operand's axis 1, the
right operand's axis 0), accumulated into the zero splat, read at `(q, l)`: the sum over
`r < k` of `lhs (q, r) * rhs (r, l)`.  The four hypotheses name the contraction shape (one axis
of extent `k`) and the two non-contracted coordinates of the operand indices. -/
theorem matmul_plain_apply {m k n : Nat} {φ₁ φ₂ : FTy}
    (D : DotDims ⟨2, ![m, k]⟩ ⟨2, ![k, n]⟩ ⟨2, ![m, n]⟩)
    (hlc : D.lhsContracting = [1]) (hrc : D.rhsContracting = [0])
    (hrank : D.contr.rank = 1) (hsize : D.contr.size ⟨0, by omega⟩ = k)
    (hl0 : ∀ (j : (⟨2, ![m, n]⟩ : Shape).Idx) (κ : D.contr.Idx), (D.lhsIdx j κ 0).val = (j 0).val)
    (hr1 : ∀ (j : (⟨2, ![m, n]⟩ : Shape).Idx) (κ : D.contr.Idx), (D.rhsIdx j κ 1).val = (j 1).val)
    (prec : Option ContractPrecision)
    (lhs : FVec Ideal ⟨2, ![m, k]⟩ φ₁) (rhs : FVec Ideal ⟨2, ![k, n]⟩ φ₂) (q : Fin m) (l : Fin n) :
    FloatOps.matmul D prec lhs rhs (constant ⟨2, ![m, n]⟩ .f32 0x00000000#32) (ix2 q l)
      = ∑ r : Fin k, lhs (ix2 q r) * rhs (ix2 r l) := by
  refine (Ideal.matmul_constant_zero_apply D prec lhs rhs (ix2 q l)).trans ?_
  refine (Equiv.sum_comp (contrEquiv1 D k hrank hsize).symm _).symm.trans ?_
  refine Finset.sum_congr rfl fun r _ => ?_
  have e1 : D.lhsIdx (ix2 q l) ((contrEquiv1 D k hrank hsize).symm r) = ix2 q r := by
    funext a
    match a with
    | ⟨0, _⟩ => exact Fin.ext (hl0 _ _)
    | ⟨1, _⟩ =>
      exact Fin.ext ((D.lhsIdx_val_of_single hlc _ _).trans (contrEquiv1_symm_val D k hrank hsize r))
  have e2 : D.rhsIdx (ix2 q l) ((contrEquiv1 D k hrank hsize).symm r) = ix2 r l := by
    funext a
    match a with
    | ⟨0, _⟩ =>
      exact Fin.ext ((D.rhsIdx_val_of_single hrc _ _).trans (contrEquiv1_symm_val D k hrank hsize r))
    | ⟨1, _⟩ => exact Fin.ext (hr1 _ _)
  show lhs (D.lhsIdx (ix2 q l) ((contrEquiv1 D k hrank hsize).symm r))
      * rhs (D.rhsIdx (ix2 q l) ((contrEquiv1 D k hrank hsize).symm r)) = _
  rw [e1, e2]

/-- An `[n, 1]` column broadcast to `[n, m]` reads, at `(r, l)`, the column at `(r, 0)`. -/
theorem broadcastTo_a1_ab_apply {α : Type} {n m : Nat} (x : (⟨2, ![n, 1]⟩ : Shape).Idx → α)
    (h : (⟨2, ![n, 1]⟩ : Shape).Broadcasts ⟨2, ![n, m]⟩) (r : Fin n) (l : Fin m) :
    broadcastTo ⟨2, ![n, m]⟩ x h (ix2 r l) = x (ix2 r (0 : Fin 1)) := by
  refine broadcastTo_apply x h (ix2 r l) (ix2 r (0 : Fin 1)) fun ax => ?_
  match ax with
  | ⟨0, _⟩ =>
    show r.val = if n = 1 then 0 else r.val
    split
    · have := r.isLt; omega
    · rfl
  | ⟨1, _⟩ => rfl

/-! ## The two stacks read at an index -/

/-- The padded stack at `(q, l)`. -/
theorem kstack_apply (x : FVec Ideal ⟨2, ![4, 16384]⟩ .bf16) (w0a : FVec Ideal ⟨2, ![40, 4]⟩ .bf16)
    (b0a : FVec Ideal ⟨2, ![40, 1]⟩ .f32) (w1a : FVec Ideal ⟨2, ![64, 40]⟩ .bf16) (q : Fin 64) (l : Fin 16384) :
    maximumf
        (matmul KernelIdeal.dot_S64x40_S40x16384_S64x16384_1_0_0_1_n_n none w1a
          (truncf .bf16
            (maximumf
              (addf
                (matmul KernelIdeal.dot_S40x4_S4x16384_S40x16384_1_0_0_1_n_n none w0a x
                  (constant KernelIdeal.S40x16384 .f32 0x00000000#32))
                (broadcastTo KernelIdeal.S40x16384 b0a KernelIdeal.Gen.broadcasts_S40x1_S40x16384))
              (broadcast KernelIdeal.S40x16384 (Scalar.ofBits .f32 0x00000000#32)))
            KernelIdeal.Gen.bitsLt_bf16_f32)
          (constant KernelIdeal.S64x16384 .f32 0x00000000#32))
        (broadcast KernelIdeal.S64x16384 (Scalar.ofBits .f32 0x00000000#32)) (ix2 q l)
      = max (∑ r : Fin 40, w1a (ix2 q r)
          * max (∑ k : Fin 4, w0a (ix2 r k) * x (ix2 k l) + b0a (ix2 r (0 : Fin 1))) 0) 0 := by
  have hD2 := matmul_plain_apply (φ₂ := .bf16) KernelIdeal.dot_S64x40_S40x16384_S64x16384_1_0_0_1_n_n rfl rfl rfl rfl
    (fun _ _ => rfl) (fun _ _ => rfl) none w1a
  have hD1 := matmul_plain_apply KernelIdeal.dot_S40x4_S4x16384_S40x16384_1_0_0_1_n_n rfl rfl rfl rfl
    (fun _ _ => rfl) (fun _ _ => rfl) none w0a x
  have hzero : (Scalar.ofBits (F := Ideal) .f32 0x00000000#32) = (0 : EReal) := Ideal.ofBits_zero_f32
  simp only [maximumf_apply, broadcast_apply, matmul]
  rw [hD2]
  simp only [truncf_apply, maximumf_apply, addf_apply, broadcast_apply, hD1, broadcastTo_a1_ab_apply, hzero]

/-- The plain stack at `(q, l)`. -/
theorem rstack_apply (x : FVec Ideal ⟨2, ![4, 16384]⟩ .f32) (w0 : FVec Ideal ⟨2, ![32, 4]⟩ .f32)
    (b0 : FVec Ideal ⟨2, ![32, 1]⟩ .f32) (w1 : FVec Ideal ⟨2, ![64, 32]⟩ .f32)
    (b1 : FVec Ideal ⟨2, ![64, 1]⟩ .f32) (q : Fin 64) (l : Fin 16384) :
    maximumf
        (addf
          (matmul ReferenceIdeal.dot_S64x32_S32x16384_S64x16384_1_0_0_1_n_n none w1
            (maximumf
              (addf
                (matmul ReferenceIdeal.dot_S32x4_S4x16384_S32x16384_1_0_0_1_n_n none w0 x
                  (constant ReferenceIdeal.S32x16384 .f32 0x00000000#32))
                (broadcastTo ReferenceIdeal.S32x16384 b0 ReferenceIdeal.Gen.broadcasts_S32x1_S32x16384))
              (broadcast ReferenceIdeal.S32x16384 (Scalar.ofBits .f32 0x00000000#32)))
            (constant ReferenceIdeal.S64x16384 .f32 0x00000000#32))
          (broadcastTo ReferenceIdeal.S64x16384 b1 ReferenceIdeal.Gen.broadcasts_S64x1_S64x16384))
        (broadcast ReferenceIdeal.S64x16384 (Scalar.ofBits .f32 0x00000000#32)) (ix2 q l)
      = max (∑ r : Fin 32, w1 (ix2 q r)
          * max (∑ k : Fin 4, w0 (ix2 r k) * x (ix2 k l) + b0 (ix2 r (0 : Fin 1))) 0
          + b1 (ix2 q (0 : Fin 1))) 0 := by
  have hD2 := matmul_plain_apply (φ₂ := .f32) ReferenceIdeal.dot_S64x32_S32x16384_S64x16384_1_0_0_1_n_n rfl rfl rfl rfl
    (fun _ _ => rfl) (fun _ _ => rfl) none w1
  have hD1 := matmul_plain_apply ReferenceIdeal.dot_S32x4_S4x16384_S32x16384_1_0_0_1_n_n rfl rfl rfl rfl
    (fun _ _ => rfl) (fun _ _ => rfl) none w0 x
  have hzero : (Scalar.ofBits (F := Ideal) .f32 0x00000000#32) = (0 : EReal) := Ideal.ofBits_zero_f32
  simp only [maximumf_apply, addf_apply, broadcast_apply, matmul]
  rw [hD2]
  simp only [maximumf_apply, addf_apply, broadcast_apply, hD1, broadcastTo_a1_ab_apply, hzero]

/-! ## The two stacks are equal -/

/-- The padded stack equals the plain one: hidden row 32 of the padded stack is `relu (0 + 1) = 1`
and multiplies `b₁`, hidden rows above 32 multiply `0`, and the first 32 rows are the plain
stack's. -/
theorem stack_eq (xb : Vec Ideal KernelIdeal.S1x4x16384 .f32) (w0a : Vec Ideal KernelIdeal.S40x4 .bf16)
    (b0a : Vec Ideal KernelIdeal.S40x1 .f32) (w1a : Vec Ideal KernelIdeal.S64x40 .bf16)
    (w0 : Vec Ideal ReferenceIdeal.S32x4 .f32) (b0 : Vec Ideal ReferenceIdeal.S32x1 .f32)
    (w1 : Vec Ideal ReferenceIdeal.S64x32 .f32) (b1 : Vec Ideal ReferenceIdeal.S64x1 .f32)
    (hw0 : ∀ (r : Fin 40) (k : Fin 4), w0a (ix2 r k) = if h : r.val < 32 then w0 (ix2 ⟨r.val, h⟩ k) else 0)
    (hb0 : ∀ r : Fin 40, b0a (ix2 r 0)
      = if h : r.val < 32 then b0 (ix2 ⟨r.val, h⟩ 0) else if r.val = 32 then 1 else 0)
    (hw1 : ∀ (q : Fin 64) (r : Fin 40), w1a (ix2 q r)
      = if h : r.val < 32 then w1 (ix2 q ⟨r.val, h⟩) else if r.val = 32 then b1 (ix2 q 0) else 0) :
    KernelIdeal.Gen.k0_pay1 (F := Ideal) xb w0a b0a w1a
      = ReferenceIdeal.Gen.k0_pay1 (F := Ideal) xb w0 b0 w1 b1 := by
  funext j
  obtain ⟨q, l, rfl⟩ : ∃ (q : Fin 64) (l : Fin 16384), j = ix2 q l := ⟨j 0, j 1, eq_ix2 j⟩
  have hK : KernelIdeal.Gen.k0_pay1 (F := Ideal) xb w0a b0a w1a (ix2 q l) = _ :=
    kstack_apply
      (truncf .bf16 (shapeCast KernelIdeal.S4x16384 xb KernelIdeal.Gen.shapeCasts_S1x4x16384_S4x16384)
        KernelIdeal.Gen.bitsLt_bf16_f32)
      (shapeCast KernelIdeal.S40x4 w0a KernelIdeal.Gen.shapeCasts_S40x4_S40x4)
      (shapeCast KernelIdeal.S40x1 b0a KernelIdeal.Gen.shapeCasts_S40x1_S40x1)
      (shapeCast KernelIdeal.S64x40 w1a KernelIdeal.Gen.shapeCasts_S64x40_S64x40) q l
  have hR : ReferenceIdeal.Gen.k0_pay1 (F := Ideal) xb w0 b0 w1 b1 (ix2 q l) = _ :=
    rstack_apply
      (shapeCast ReferenceIdeal.S4x16384 xb ReferenceIdeal.Gen.shapeCasts_S1x4x16384_S4x16384)
      w0 b0 w1 b1 q l
  rw [hK, hR]
  simp only [shapeCast_self, truncf_apply]
  refine congrArg (fun s : EReal => max s 0) ?_
  refine aug_sum
    (fun r : Fin 32 => w1 (ix2 q r)
      * max (∑ k : Fin 4, w0 (ix2 r k)
          * shapeCast ReferenceIdeal.S4x16384 xb ReferenceIdeal.Gen.shapeCasts_S1x4x16384_S4x16384 (ix2 k l)
        + b0 (ix2 r (0 : Fin 1))) 0)
    (b1 (ix2 q (0 : Fin 1))) _ (fun r => ?_)
  show w1a (ix2 q r) * max (∑ k : Fin 4, w0a (ix2 r k)
          * shapeCast KernelIdeal.S4x16384 xb KernelIdeal.Gen.shapeCasts_S1x4x16384_S4x16384 (ix2 k l)
        + b0a (ix2 r (0 : Fin 1))) 0
      = if h : r.val < 32 then
          w1 (ix2 q ⟨r.val, h⟩) * max (∑ k : Fin 4, w0 (ix2 ⟨r.val, h⟩ k)
              * shapeCast ReferenceIdeal.S4x16384 xb ReferenceIdeal.Gen.shapeCasts_S1x4x16384_S4x16384 (ix2 k l)
            + b0 (ix2 ⟨r.val, h⟩ (0 : Fin 1))) 0
        else if r.val = 32 then b1 (ix2 q (0 : Fin 1)) else 0
  by_cases h : r.val < 32
  · -- a row of the plain stack
    rw [dif_pos h]
    simp only [hw0, hb0, hw1, dif_pos h]
  · by_cases h2 : r.val = 32
    · -- the carrier row: `relu (0 + 1) = 1` times `b₁`
      rw [dif_neg h, if_pos h2]
      simp only [hw0, hb0, hw1, dif_neg h, if_pos h2, zero_mul, Finset.sum_const_zero, zero_add]
      rw [max_eq_left (zero_le_one : (0 : EReal) ≤ 1), mul_one]
    · -- a padding row: its weight is zero
      rw [dif_neg h, if_neg h2]
      simp only [hw1, dif_neg h, if_neg h2, zero_mul]

/-! ## The payloads built around the stack -/

/-- A `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- The row sums of the two stacks agree at every row. -/
theorem pay_sum_eq (xb : Vec Ideal KernelIdeal.S1x4x16384 .f32) (w0a : Vec Ideal KernelIdeal.S40x4 .bf16)
    (b0a : Vec Ideal KernelIdeal.S40x1 .f32) (w1a : Vec Ideal KernelIdeal.S64x40 .bf16)
    (w0 : Vec Ideal ReferenceIdeal.S32x4 .f32) (b0 : Vec Ideal ReferenceIdeal.S32x1 .f32)
    (w1 : Vec Ideal ReferenceIdeal.S64x32 .f32) (b1 : Vec Ideal ReferenceIdeal.S64x1 .f32)
    (hw0 : ∀ (r : Fin 40) (k : Fin 4), w0a (ix2 r k) = if h : r.val < 32 then w0 (ix2 ⟨r.val, h⟩ k) else 0)
    (hb0 : ∀ r : Fin 40, b0a (ix2 r 0)
      = if h : r.val < 32 then b0 (ix2 ⟨r.val, h⟩ 0) else if r.val = 32 then 1 else 0)
    (hw1 : ∀ (q : Fin 64) (r : Fin 40), w1a (ix2 q r)
      = if h : r.val < 32 then w1 (ix2 q ⟨r.val, h⟩) else if r.val = 32 then b1 (ix2 q 0) else 0) (q : Fin 64) :
    KernelIdeal.Gen.k0_pay2 (F := Ideal) xb w0a b0a w1a (ix3 0 q 0)
      = ReferenceIdeal.Gen.k0_pay2 (F := Ideal) xb w0 b0 w1 b1 (ix4 0 0 q 0) := by
  have hs := stack_eq xb w0a b0a w1a w0 b0 w1 b1 hw0 hb0 hw1
  have hK : KernelIdeal.Gen.k0_pay2 (F := Ideal) xb w0a b0a w1a
      = shapeCast KernelIdeal.S1x64x1
          (shapeCast KernelIdeal.S64x1
            (multiReduction (F := Ideal) .add [1] KernelIdeal.S64
              (KernelIdeal.Gen.k0_pay1 (F := Ideal) xb w0a b0a w1a)
              0x00000000#32 KernelIdeal.Gen.reduces_S64x16384_S64 (.inl rfl) rfl)
            KernelIdeal.Gen.shapeCasts_S64_S64x1)
          KernelIdeal.Gen.shapeCasts_S64x1_S1x64x1 := rfl
  have hR : ReferenceIdeal.Gen.k0_pay2 (F := Ideal) xb w0 b0 w1 b1
      = shapeCast ReferenceIdeal.S1x1x64x1
          (shapeCast ReferenceIdeal.S64x1
            (multiReduction (F := Ideal) .add [1] ReferenceIdeal.S64
              (ReferenceIdeal.Gen.k0_pay1 (F := Ideal) xb w0 b0 w1 b1)
              0x00000000#32 ReferenceIdeal.Gen.reduces_S64x16384_S64 (.inl rfl) rfl)
            ReferenceIdeal.Gen.shapeCasts_S64_S64x1)
          ReferenceIdeal.Gen.shapeCasts_S64x1_S1x1x64x1 := rfl
  rw [hK, hR, hs]
  exact (shapeCast_ab_1ab_apply _ _ (0 : Fin 1) q (0 : Fin 1)).trans
    (shapeCast_ab_11ab_apply _ _ (0 : Fin 1) (0 : Fin 1) q (0 : Fin 1)).symm

/-- The row sums of squares of the two stacks agree at every row. -/
theorem pay_ssq_eq (xb : Vec Ideal KernelIdeal.S1x4x16384 .f32) (w0a : Vec Ideal KernelIdeal.S40x4 .bf16)
    (b0a : Vec Ideal KernelIdeal.S40x1 .f32) (w1a : Vec Ideal KernelIdeal.S64x40 .bf16)
    (w0 : Vec Ideal ReferenceIdeal.S32x4 .f32) (b0 : Vec Ideal ReferenceIdeal.S32x1 .f32)
    (w1 : Vec Ideal ReferenceIdeal.S64x32 .f32) (b1 : Vec Ideal ReferenceIdeal.S64x1 .f32)
    (hw0 : ∀ (r : Fin 40) (k : Fin 4), w0a (ix2 r k) = if h : r.val < 32 then w0 (ix2 ⟨r.val, h⟩ k) else 0)
    (hb0 : ∀ r : Fin 40, b0a (ix2 r 0)
      = if h : r.val < 32 then b0 (ix2 ⟨r.val, h⟩ 0) else if r.val = 32 then 1 else 0)
    (hw1 : ∀ (q : Fin 64) (r : Fin 40), w1a (ix2 q r)
      = if h : r.val < 32 then w1 (ix2 q ⟨r.val, h⟩) else if r.val = 32 then b1 (ix2 q 0) else 0) (q : Fin 64) :
    KernelIdeal.Gen.k0_pay3 (F := Ideal) xb w0a b0a w1a (ix3 0 q 0)
      = ReferenceIdeal.Gen.k0_pay3 (F := Ideal) xb w0 b0 w1 b1 (ix4 0 0 q 0) := by
  have hs := stack_eq xb w0a b0a w1a w0 b0 w1 b1 hw0 hb0 hw1
  have hK : KernelIdeal.Gen.k0_pay3 (F := Ideal) xb w0a b0a w1a
      = shapeCast KernelIdeal.S1x64x1
          (shapeCast KernelIdeal.S64x1
            (multiReduction (F := Ideal) .add [1] KernelIdeal.S64
              (mulf (KernelIdeal.Gen.k0_pay1 (F := Ideal) xb w0a b0a w1a) (KernelIdeal.Gen.k0_pay1 (F := Ideal) xb w0a b0a w1a))
              0x00000000#32 KernelIdeal.Gen.reduces_S64x16384_S64 (.inl rfl) rfl)
            KernelIdeal.Gen.shapeCasts_S64_S64x1)
          KernelIdeal.Gen.shapeCasts_S64x1_S1x64x1 := rfl
  have hR : ReferenceIdeal.Gen.k0_pay3 (F := Ideal) xb w0 b0 w1 b1
      = shapeCast ReferenceIdeal.S1x1x64x1
          (shapeCast ReferenceIdeal.S64x1
            (multiReduction (F := Ideal) .add [1] ReferenceIdeal.S64
              (mulf (ReferenceIdeal.Gen.k0_pay1 (F := Ideal) xb w0 b0 w1 b1) (ReferenceIdeal.Gen.k0_pay1 (F := Ideal) xb w0 b0 w1 b1))
              0x00000000#32 ReferenceIdeal.Gen.reduces_S64x16384_S64 (.inl rfl) rfl)
            ReferenceIdeal.Gen.shapeCasts_S64_S64x1)
          ReferenceIdeal.Gen.shapeCasts_S64x1_S1x1x64x1 := rfl
  rw [hK, hR, hs]
  exact (shapeCast_ab_1ab_apply _ _ (0 : Fin 1) q (0 : Fin 1)).trans
    (shapeCast_ab_11ab_apply _ _ (0 : Fin 1) (0 : Fin 1) q (0 : Fin 1)).symm

/-- The normalised stacks agree. -/
theorem pay_norm_eq (xb : Vec Ideal KernelIdeal.S1x4x16384 .f32) (w0a : Vec Ideal KernelIdeal.S40x4 .bf16)
    (b0a : Vec Ideal KernelIdeal.S40x1 .f32) (w1a : Vec Ideal KernelIdeal.S64x40 .bf16)
    (w0 : Vec Ideal ReferenceIdeal.S32x4 .f32) (b0 : Vec Ideal ReferenceIdeal.S32x1 .f32)
    (w1 : Vec Ideal ReferenceIdeal.S64x32 .f32) (b1 : Vec Ideal ReferenceIdeal.S64x1 .f32)
    (hw0 : ∀ (r : Fin 40) (k : Fin 4), w0a (ix2 r k) = if h : r.val < 32 then w0 (ix2 ⟨r.val, h⟩ k) else 0)
    (hb0 : ∀ r : Fin 40, b0a (ix2 r 0)
      = if h : r.val < 32 then b0 (ix2 ⟨r.val, h⟩ 0) else if r.val = 32 then 1 else 0)
    (hw1 : ∀ (q : Fin 64) (r : Fin 40), w1a (ix2 q r)
      = if h : r.val < 32 then w1 (ix2 q ⟨r.val, h⟩) else if r.val = 32 then b1 (ix2 q 0) else 0) (sc sh : Vec Ideal KernelIdeal.S64x1 .f32) :
    KernelIdeal.Gen.k1_pay1 (F := Ideal) xb w0a b0a w1a sc sh
      = ReferenceIdeal.Gen.k1_pay1 (F := Ideal) xb w0 b0 w1 b1 sc sh := by
  have hs := stack_eq xb w0a b0a w1a w0 b0 w1 b1 hw0 hb0 hw1
  have hK : KernelIdeal.Gen.k1_pay1 (F := Ideal) xb w0a b0a w1a sc sh
      = shapeCast KernelIdeal.S1x64x16384
          (addf
            (mulf (KernelIdeal.Gen.k0_pay1 (F := Ideal) xb w0a b0a w1a)
              (broadcastTo KernelIdeal.S64x16384
                (shapeCast KernelIdeal.S64x1 sc KernelIdeal.Gen.shapeCasts_S64x1_S64x1)
                KernelIdeal.Gen.broadcasts_S64x1_S64x16384))
            (broadcastTo KernelIdeal.S64x16384
              (shapeCast KernelIdeal.S64x1 sh KernelIdeal.Gen.shapeCasts_S64x1_S64x1)
              KernelIdeal.Gen.broadcasts_S64x1_S64x16384))
          KernelIdeal.Gen.shapeCasts_S64x16384_S1x64x16384 := rfl
  have hR : ReferenceIdeal.Gen.k1_pay1 (F := Ideal) xb w0 b0 w1 b1 sc sh
      = shapeCast ReferenceIdeal.S1x64x16384
          (addf
            (mulf (ReferenceIdeal.Gen.k0_pay1 (F := Ideal) xb w0 b0 w1 b1)
              (broadcastTo ReferenceIdeal.S64x16384
                (shapeCast ReferenceIdeal.S64x1 sc ReferenceIdeal.Gen.shapeCasts_S64x1_S64x1)
                ReferenceIdeal.Gen.broadcasts_S64x1_S64x16384))
            (broadcastTo ReferenceIdeal.S64x16384
              (shapeCast ReferenceIdeal.S64x1 sh ReferenceIdeal.Gen.shapeCasts_S64x1_S64x1)
              ReferenceIdeal.Gen.broadcasts_S64x1_S64x16384))
          ReferenceIdeal.Gen.shapeCasts_S64x16384_S1x64x16384 := rfl
  rw [hK, hR, hs]

end Cert.Bridge

end
-- ==== Proof.ReduceEq.lean ====
import Idealize.ShloMosaic.PureOps.Ideal.Laws
import Idealize.ShloMosaic.Lib.ValueIdx
import Mathlib.Algebra.BigOperators.Group.Finset.Basic

/-!
# A batch sum does not see a unit axis

Two arrays hold the same numbers: `AK` of shape [128, 64, 1] and `AR` of shape [128, 1, 64, 1], with
`AK (n, q, 0) = AR (n, 0, q, 0)`. Summing `AK` over its axis 0, and summing `AR` over its axes 0 and 1, both give an array of
shape [64, 1]. At the exact (extended real) values the two results are equal: at the result index `(q, 0)` each is the
initial value plus `∑ n : Fin 128` of the common number at batch `n` and column `q`. The second reduced axis of `AR` has extent
one, so its only coordinate is `0` and the indices of `AR` that drop to `(q, 0)` are exactly `(n, 0, q, 0)`, `n : Fin 128`;
the indices of `AK` that drop to `(q, 0)` are exactly `(n, q, 0)`. Each filtered sum is re-indexed along the batch coordinate.
-/

open scoped BigOperators

namespace Cert.Bridge

open Idealize.ShloMosaic Idealize.ShloMosaic.ValueIdx

/-- The indices of a [128, 64, 1] array that drop (axis 0 removed) to `j`, summed, are the batch coordinates, summed. -/
theorem sum_filter_drop_K (AK : (⟨3, ![128, 64, 1]⟩ : Shape).Idx → EReal)
    (hK : (⟨3, ![128, 64, 1]⟩ : Shape).ReducesTo [0] ⟨2, ![64, 1]⟩) (j : (⟨2, ![64, 1]⟩ : Shape).Idx) :
    ∑ i ∈ Finset.univ.filter (fun i => hK.drop i = j), AK i = ∑ n : Fin 128, AK (ix3 n (j 0) (j 1)) := by
  refine Finset.sum_nbij' (fun i => (i 0 : Fin 128)) (fun n => ix3 n (j 0) (j 1)) ?_ ?_ ?_ ?_ ?_
  · intro i _; exact Finset.mem_univ _
  · intro n _
    refine Finset.mem_filter.2 ⟨Finset.mem_univ _, ?_⟩
    funext b
    match b with
    | ⟨0, _⟩ => exact Fin.ext rfl
    | ⟨1, _⟩ => exact Fin.ext rfl
  · intro i hi
    have hj := (Finset.mem_filter.1 hi).2
    subst hj
    funext c
    match c with
    | ⟨0, _⟩ => exact Fin.ext rfl
    | ⟨1, _⟩ => exact Fin.ext rfl
    | ⟨2, _⟩ => exact Fin.ext rfl
  · intro n _; rfl
  · intro i hi
    have hj := (Finset.mem_filter.1 hi).2
    subst hj
    congr 1
    funext c
    match c with
    | ⟨0, _⟩ => exact Fin.ext rfl
    | ⟨1, _⟩ => exact Fin.ext rfl
    | ⟨2, _⟩ => exact Fin.ext rfl

/-- The indices of a [128, 1, 64, 1] array that drop (axes 0 and 1 removed) to `j`, summed, are the batch coordinates, summed:
    the unit axis has the single coordinate `0`. -/
theorem sum_filter_drop_R (AR : (⟨4, ![128, 1, 64, 1]⟩ : Shape).Idx → EReal)
    (hR : (⟨4, ![128, 1, 64, 1]⟩ : Shape).ReducesTo [0, 1] ⟨2, ![64, 1]⟩) (j : (⟨2, ![64, 1]⟩ : Shape).Idx) :
    ∑ i ∈ Finset.univ.filter (fun i => hR.drop i = j), AR i = ∑ n : Fin 128, AR (ix4 n 0 (j 0) (j 1)) := by
  have unit : ∀ i : (⟨4, ![128, 1, 64, 1]⟩ : Shape).Idx, (0 : ℕ) = (i 1).val := fun i => by
    have : (i 1).val < 1 := (i 1).isLt
    omega
  refine Finset.sum_nbij' (fun i => (i 0 : Fin 128)) (fun n => ix4 n 0 (j 0) (j 1)) ?_ ?_ ?_ ?_ ?_
  · intro i _; exact Finset.mem_univ _
  · intro n _
    refine Finset.mem_filter.2 ⟨Finset.mem_univ _, ?_⟩
    funext b
    match b with
    | ⟨0, _⟩ => exact Fin.ext rfl
    | ⟨1, _⟩ => exact Fin.ext rfl
  · intro i hi
    have hj := (Finset.mem_filter.1 hi).2
    subst hj
    funext c
    match c with
    | ⟨0, _⟩ => exact Fin.ext rfl
    | ⟨1, _⟩ => exact Fin.ext (unit i)
    | ⟨2, _⟩ => exact Fin.ext rfl
    | ⟨3, _⟩ => exact Fin.ext rfl
  · intro n _; rfl
  · intro i hi
    have hj := (Finset.mem_filter.1 hi).2
    subst hj
    congr 1
    funext c
    match c with
    | ⟨0, _⟩ => exact Fin.ext rfl
    | ⟨1, _⟩ => exact Fin.ext (unit i).symm
    | ⟨2, _⟩ => exact Fin.ext rfl
    | ⟨3, _⟩ => exact Fin.ext rfl

/-- The kernel's batch sum over axis 0 of the [128, 64, 1] array and the reference's over axes 0 and 1 of the
    [128, 1, 64, 1] array holding the same numbers are the same [64, 1] array, at the exact values. -/
theorem reduce_batch_eq
    (AK : (⟨3, ![128, 64, 1]⟩ : Shape).Idx → EReal) (AR : (⟨4, ![128, 1, 64, 1]⟩ : Shape).Idx → EReal)
    (init : (⟨0, ![]⟩ : Shape).Idx → EReal)
    (hK : (⟨3, ![128, 64, 1]⟩ : Shape).ReducesTo [0] ⟨2, ![64, 1]⟩)
    (hR : (⟨4, ![128, 1, 64, 1]⟩ : Shape).ReducesTo [0, 1] ⟨2, ![64, 1]⟩)
    (hu : 0 < (⟨0, ![]⟩ : Shape).numel)
    (h : ∀ (n : Fin 128) (q : Fin 64), AK (ix3 n q 0) = AR (ix4 n 0 q 0)) :
    Host.reduceAdd (F := Ideal) (φ := .f32) AK init hK hu = Host.reduceAdd (F := Ideal) (φ := .f32) AR init hR hu := by
  funext j
  show Ideal.hostReduceAdd hK AK (init (Shape.Idx.first hu)) j = Ideal.hostReduceAdd hR AR (init (Shape.Idx.first hu)) j
  unfold Ideal.hostReduceAdd
  rw [sum_filter_drop_K, sum_filter_drop_R]
  have h1 : j 1 = (0 : Fin 1) := Fin.ext (by
    have : (j 1).val < 1 := (j 1).isLt
    show (j 1).val = 0
    omega)
  rw [h1]
  exact congrArg _ (Finset.sum_congr rfl fun n _ => h n (j 0))

end Cert.Bridge
-- ==== Proof.Final.lean ====
/-
  At the Ideal instance the kernel program's result and the reference program's result are one function of the
  arguments. Tile by tile both second calls store stack · scale + shift, and the two stacks agree because the kernel's
  40-row hidden layer is the reference's 32 rows, a constant-one row that carries the second bias through the second
  product, and seven dead rows (zero weight, zero bias, zero outgoing weight): Σ_{r<40} W1a[q,r]·h[r] = Σ_{r<32}
  W1[q,r]·h[r] + b1[q]. The folded scale and shift agree because they are the same fold of the batch sums, and the
  batch sums agree because the per-tile sums are the same numbers laid out as [128, 64, 1] and as [128, 1, 64, 1].
-/
import proofs.«106257_g2000300775167955_pallasbulk_386_4_alg».proof.Proof.KValue
import proofs.«106257_g2000300775167955_pallasbulk_386_4_alg».proof.Proof.RValue
import proofs.«106257_g2000300775167955_pallasbulk_386_4_alg».proof.Proof.KPrelude
import proofs.«106257_g2000300775167955_pallasbulk_386_4_alg».proof.Proof.StackEq
import proofs.«106257_g2000300775167955_pallasbulk_386_4_alg».proof.Proof.ReduceEq

set_option maxRecDepth 16384

noncomputable section

open Idealize.ShloMosaic Idealize.ShloMosaic.TcCoe Idealize.SL.Sem Idealize.ShloMosaic.ValueIdx

namespace Cert.Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two memories agree on the seven arguments. -/
structure Agree (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'}

/-- The per-tile channel sums are the same numbers in the two layouts. -/
theorem sums_eq (c : Dev Cert.KernelIdeal.nD) (h : Agree m m' c) (n : Fin 128) (q : Fin 64) :
    Cert.KernelIdeal.Hand.sums (F := Ideal) (Cert.KernelIdeal.Gen.V1 m ρ) c (ix3 n q 0) = Cert.ReferenceIdeal.Hand.sums (F := Ideal) (Cert.ReferenceIdeal.Hand.M0 m') c (ix4 n 0 q 0) := by
  show Cert.KernelIdeal.Gen.k0_pay2 (F := Ideal) (xtile (Cert.KernelIdeal.Gen.V1 m ρ c Cert.KernelIdeal.main_arg0) n) (Cert.KernelIdeal.Gen.V1 m ρ c Cert.KernelIdeal.main_v3) (Cert.KernelIdeal.Gen.V1 m ρ c Cert.KernelIdeal.main_v10) (Cert.KernelIdeal.Gen.V1 m ρ c Cert.KernelIdeal.main_v17) (ix3 0 q 0)
     = Cert.ReferenceIdeal.Gen.k0_pay2 (F := Ideal) (xtile (m' ((c.tc : Thread Cert.ReferenceIdeal.nD Cert.ReferenceIdeal.τ).loc Cert.ReferenceIdeal.main_arg0)) n) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (ix4 0 0 q 0)
  rw [Cert.KernelIdeal.Hand.V1_x, h.a0, h.a1, h.a2, h.a3, h.a4]
  exact pay_sum_eq _ _ _ _ _ _ _ _ (Cert.KernelIdeal.Hand.w0a_apply m ρ c) (Cert.KernelIdeal.Hand.b0a_apply m ρ c) (Cert.KernelIdeal.Hand.w1a_apply m ρ c) q

/-- The per-tile channel sums of squares likewise. -/
theorem ssqs_eq (c : Dev Cert.KernelIdeal.nD) (h : Agree m m' c) (n : Fin 128) (q : Fin 64) :
    Cert.KernelIdeal.Hand.ssqs (F := Ideal) (Cert.KernelIdeal.Gen.V1 m ρ) c (ix3 n q 0) = Cert.ReferenceIdeal.Hand.ssqs (F := Ideal) (Cert.ReferenceIdeal.Hand.M0 m') c (ix4 n 0 q 0) := by
  show Cert.KernelIdeal.Gen.k0_pay3 (F := Ideal) (xtile (Cert.KernelIdeal.Gen.V1 m ρ c Cert.KernelIdeal.main_arg0) n) (Cert.KernelIdeal.Gen.V1 m ρ c Cert.KernelIdeal.main_v3) (Cert.KernelIdeal.Gen.V1 m ρ c Cert.KernelIdeal.main_v10) (Cert.KernelIdeal.Gen.V1 m ρ c Cert.KernelIdeal.main_v17) (ix3 0 q 0)
     = Cert.ReferenceIdeal.Gen.k0_pay3 (F := Ideal) (xtile (m' ((c.tc : Thread Cert.ReferenceIdeal.nD Cert.ReferenceIdeal.τ).loc Cert.ReferenceIdeal.main_arg0)) n) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (ix4 0 0 q 0)
  rw [Cert.KernelIdeal.Hand.V1_x, h.a0, h.a1, h.a2, h.a3, h.a4]
  exact pay_ssq_eq _ _ _ _ _ _ _ _ (Cert.KernelIdeal.Hand.w0a_apply m ρ c) (Cert.KernelIdeal.Hand.b0a_apply m ρ c) (Cert.KernelIdeal.Hand.w1a_apply m ρ c) q

/-- So the batch sums agree, and with them the folded scale and shift. -/
theorem scale_eq (c : Dev Cert.KernelIdeal.nD) (h : Agree m m' c) : Cert.KernelIdeal.Hand.scaleK (F := Ideal) m ρ c = Cert.ReferenceIdeal.Hand.scaleR (F := Ideal) m' c := by
  unfold Cert.KernelIdeal.Hand.scaleK Cert.ReferenceIdeal.Hand.scaleR
  rw [reduce_batch_eq (Cert.KernelIdeal.Hand.sums (F := Ideal) (Cert.KernelIdeal.Gen.V1 m ρ) c) (Cert.ReferenceIdeal.Hand.sums (F := Ideal) (Cert.ReferenceIdeal.Hand.M0 m') c) _ _ Cert.ReferenceIdeal.Gen.reducesTo_S128x1x64x1_S64x1_d0_1 _ (sums_eq ρ c h),
    reduce_batch_eq (Cert.KernelIdeal.Hand.ssqs (F := Ideal) (Cert.KernelIdeal.Gen.V1 m ρ) c) (Cert.ReferenceIdeal.Hand.ssqs (F := Ideal) (Cert.ReferenceIdeal.Hand.M0 m') c) _ _ Cert.ReferenceIdeal.Gen.reducesTo_S128x1x64x1_S64x1_d0_1 _ (ssqs_eq ρ c h), ← h.a5]
theorem shift_eq (c : Dev Cert.KernelIdeal.nD) (h : Agree m m' c) : Cert.KernelIdeal.Hand.shiftK (F := Ideal) m ρ c = Cert.ReferenceIdeal.Hand.shiftR (F := Ideal) m' c := by
  unfold Cert.KernelIdeal.Hand.shiftK Cert.ReferenceIdeal.Hand.shiftR
  rw [reduce_batch_eq (Cert.KernelIdeal.Hand.sums (F := Ideal) (Cert.KernelIdeal.Gen.V1 m ρ) c) (Cert.ReferenceIdeal.Hand.sums (F := Ideal) (Cert.ReferenceIdeal.Hand.M0 m') c) _ _ Cert.ReferenceIdeal.Gen.reducesTo_S128x1x64x1_S64x1_d0_1 _ (sums_eq ρ c h),
    reduce_batch_eq (Cert.KernelIdeal.Hand.ssqs (F := Ideal) (Cert.KernelIdeal.Gen.V1 m ρ) c) (Cert.ReferenceIdeal.Hand.ssqs (F := Ideal) (Cert.ReferenceIdeal.Hand.M0 m') c) _ _ Cert.ReferenceIdeal.Gen.reducesTo_S128x1x64x1_S64x1_d0_1 _ (ssqs_eq ρ c h), ← h.a5, ← h.a6]

/-- The two programs' results are one function of the arguments. -/
theorem result_eq (c : Dev Cert.KernelIdeal.nD) (h : Agree m m' c) :
    Cert.ReferenceIdeal.Hand.resultR (F := Ideal) m' c = Cert.KernelIdeal.Hand.resultK (F := Ideal) m ρ c := by
  funext i
  unfold Cert.ReferenceIdeal.Hand.resultR Cert.KernelIdeal.Hand.resultK
  rw [← scale_eq ρ c h, ← shift_eq ρ c h, h.a0, h.a1, h.a2, h.a3, h.a4]
  exact (congrFun (pay_norm_eq _ _ _ _ _ _ _ _ (Cert.KernelIdeal.Hand.w0a_apply m ρ c) (Cert.KernelIdeal.Hand.b0a_apply m ρ c) (Cert.KernelIdeal.Hand.w1a_apply m ρ c) _ _) _).symm

end Cert.Bridge

end
-- ==== Proof.lean ====
/-
  The certificate of a two-pass batch-normalised pointwise MLP: y = BN(relu(W1 · relu(W0 · x + b0) + b1)) over
  x : [128, 4, 16384], with the batch statistics (mean, biased variance over the batch and length axes, per channel)
  taken in a first pass and the stack recomputed and normalised in a second.
  The kernel and the reference have the same shape — a statistics pallas_call, a short host fold, a normalisation
  pallas_call — and differ in three things, none of which is a difference at the Ideal instance:
  the kernel feeds its matrix products bf16 operands (a change of float format is the identity at Ideal); it lays
  its per-tile partial sums out as [128, 64, 1] where the reference has [128, 1, 64, 1] (one unit axis more: the batch
  sums are the same sums); and it pads the hidden layer to 40 rows so that the second bias rides through the second
  product: hidden row 32 has zero weights and bias one, so it is relu(0 + 1) = 1 at every position, and column 32 of
  the augmented second weight is b1; rows 33 to 39 are dead. Hence Σ_{r<40} W1a[q,r] · h[r] = Σ_{r<32} W1[q,r] · h[r]
  + b1[q] on the extended reals (0 · a = 0 and a · 1 = a for every a, so no finiteness of the inputs is used).
  The three frames are the generated frame certificates; the ideal pass rewrote nothing, so `preserves` is trivial;
  the value claim runs both programs with their result named (the generated launch called once more) and shows the
  two results are one function of the arguments.
-/
import proofs.«106257_g2000300775167955_pallasbulk_386_4_alg».proof.Defs
import proofs.«106257_g2000300775167955_pallasbulk_386_4_alg».proof.Proof.Gen.Kernel
import proofs.«106257_g2000300775167955_pallasbulk_386_4_alg».proof.Proof.Gen.Kernel.Skeleton
import proofs.«106257_g2000300775167955_pallasbulk_386_4_alg».proof.Proof.Gen.Kernel.Launch
import proofs.«106257_g2000300775167955_pallasbulk_386_4_alg».proof.Proof.Gen.Kernel.Points
import proofs.«106257_g2000300775167955_pallasbulk_386_4_alg».proof.Proof.Gen.Kernel.Frame
import proofs.«106257_g2000300775167955_pallasbulk_386_4_alg».proof.Proof.Gen.KernelIdeal
import proofs.«106257_g2000300775167955_pallasbulk_386_4_alg».proof.Proof.Gen.KernelIdeal.Skeleton
import proofs.«106257_g2000300775167955_pallasbulk_386_4_alg».proof.Proof.Gen.KernelIdeal.Launch
import proofs.«106257_g2000300775167955_pallasbulk_386_4_alg».proof.Proof.Gen.KernelIdeal.Points
import proofs.«106257_g2000300775167955_pallasbulk_386_4_alg».proof.Proof.Gen.KernelIdeal.Frame
import proofs.«106257_g2000300775167955_pallasbulk_386_4_alg».proof.Proof.Gen.ReferenceIdeal
import proofs.«106257_g2000300775167955_pallasbulk_386_4_alg».proof.Proof.Gen.ReferenceIdeal.Skeleton
import proofs.«106257_g2000300775167955_pallasbulk_386_4_alg».proof.Proof.Gen.ReferenceIdeal.Launch
import proofs.«106257_g2000300775167955_pallasbulk_386_4_alg».proof.Proof.Gen.ReferenceIdeal.Points
import proofs.«106257_g2000300775167955_pallasbulk_386_4_alg».proof.Proof.Gen.ReferenceIdeal.Frame
import proofs.«106257_g2000300775167955_pallasbulk_386_4_alg».proof.Proof.Gen.Pre_finite_inputs
import proofs.«106257_g2000300775167955_pallasbulk_386_4_alg».proof.Proof.KRun
import proofs.«106257_g2000300775167955_pallasbulk_386_4_alg».proof.Proof.RRun
import proofs.«106257_g2000300775167955_pallasbulk_386_4_alg».proof.Proof.Final
import Idealize.ShloMosaic.Adequacy
import Idealize.ShloMosaic.Init

noncomputable section

namespace Cert.Proof

open Idealize.ShloMosaic Idealize.SL.Sem

/-- The three programs run, fault-free, and leave their arguments unchanged: the generated frame certificates. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories agreeing on the arguments both idealized programs end with the same result array: the kernel's
    as its own function of the launch memory, the reference's as its own, and the two are one function of the
    arguments (`Cert.Bridge.result_eq`). The precondition is not used. -/
theorem algebraic : Cert.algebraic_KernelIdeal_ReferenceIdeal := by
  intro m ρ m' ρ' _ hagree
  refine ⟨fun c => Cert.KernelIdeal.Hand.resultK (F := Ideal) m ρ c, ?_, ?_⟩
  · exact (θ_run Cert.KernelIdeal.defs _ _).mono
      (fun _ h c => ⟨(h c).1.trans (Cert.KernelIdeal.Hand.W4_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Run.run_result (F := Ideal) m' ρ')
    obtain ⟨a0, a1, a2, a3, a4, a5, a6⟩ := hagree c
    exact (Cert.ReferenceIdeal.Hand.W3_result m' ρ' c).trans (Cert.Bridge.result_eq ρ c ⟨a0, a1, a2, a3, a4, a5, a6⟩)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
